-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S256x4096 : Shape := ⟨2, ![256, 4096]⟩
abbrev S256x16 : Shape := ⟨2, ![256, 16]⟩
abbrev S1024x1024 : Shape := ⟨2, ![1024, 1024]⟩
abbrev S1x1024 : Shape := ⟨2, ![1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S4096x4096, .bf16⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x4096, .bf16⟩
  | .local _ .vmem, ⟨6, _⟩ => ⟨S256x4096, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S4096_S1x4096 : S4096.ShapeCasts S1x4096
  inb_S256x16_S256x16_0_0 : ∀ a, (![0, 0] : Fin 2 → Nat) a + S256x16.size a ≤ S256x16.size a
  h_S256x16 : 0 < S256x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.K.Fuse.lean ====
/-
  The weight-fusing call (the program's first kernel region), as the pipeline runs it.

  The grid has 16 points; point t stages rows [256 t, 256 t + 256) of the base weight W (window 0) and of the
  low-rank factor B (window 1), the whole factor A (window 2, staged once), and writes back the same rows of the
  fused weight (window 3).  The body loads the three input blocks and stores, over the whole output block,

      fused = W_blk + (B_blk · A) * (1/16)            (one pure term of the three loads: `k0_pay1`)

  so after the body the output's staging buffer holds `k0_pay1` of the three input blocks at the point, and each
  input's buffer still holds its block.  Nothing is carried between points, nothing is owed, the kernel has no
  semaphore of its own: the region invariant is the plain one (the scoped buffers no window stages, at any contents,
  and the generator register).  Everything here is stated for any float instance `F` and at a PARAMETER `V`, the
  core's buffer contents when the region is entered.
-/
import proofs.«117131_j27023934227119_1_alg».proof.Proof.Gen.Kernel.Launch
import proofs.«117131_j27023934227119_1_alg».proof.Proof.Gen.Kernel.Skeleton
import proofs.«117131_j27023934227119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body on whole staging memrefs -/

/-- The rectangle every access of the body goes through: the whole 256×4096 buffer. -/
abbrev rW : Rect S256x4096 := Rect.unit (s := S256x4096) ![0, 0] S256x4096.size inb_S256x4096_S256x4096_0_0

/-- One store over the whole buffer covers it. -/
theorem coverW (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

set_option maxHeartbeats 1000000 in
/-- The body, on whole staging memrefs holding a block `w` of W, a block `b` of B and the factor `a`, the output's at
    anything: it runs to the continuation with the inputs as they were and the output's buffer at `k0_pay1 b a w`. -/
theorem run_fuse (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x4096 .bf16) (harg4 : arg4.IsWhole)
    (w : Vec F S256x4096 .f32) (b : Vec F S256x16 .f32) (a : Vec F S16x4096 .f32) (K : PUnit → sProp 𝕄) :
    iprop(owns (c : Thread nD τ) arg1 fullShare w ∗ owns (c : Thread nD τ) arg2 fullShare b ∗ owns (c : Thread nD τ) arg3 fullShare a
        ∗ (∃ d, owns (c : Thread nD τ) arg4 fullShare d)
        ∗ (iprop(owns (c : Thread nD τ) arg1 fullShare w ∗ owns (c : Thread nD τ) arg2 fullShare b ∗ owns (c : Thread nD τ) arg3 fullShare a
            ∗ owns (c : Thread nD τ) arg4 fullShare (k0_pay1 b a w)) -∗ K ⟨⟩))
      ⊢ wp frame (wpE (defs₀ (F := F)) Variants.none c none) E (cc0__fuse_weight_kernel i arg1 harg1 arg2 harg2 arg3 harg3 arg4 harg4) K := by
  simp only [cc0__fuse_weight_kernel_eq_skeleton]; unfold cc0__fuse_weight_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → Nat) = fun _ => 0 := by funext a; fin_cases a <;> rfl
  rw [View.read_writes_eq_canon _ _ _ (fun y => ⟨_, List.mem_singleton_self _, View.mem_set_unit_zero hz inb_S256x4096_S256x4096_0_0 y⟩),
    View.canon_unit_zero hz]
  simp only [View.readAt_eq_ld, View.ld_unit_zero (S := S256x16) hz, View.ld_unit_zero (S := S16x4096) hz,
    View.ld_unit_zero (S := S256x4096) hz]

/-! ## The proof data -/

/-- The proof data of the call on core `c`: the arrays as the region finds them; after the body at point `t` each input's
    buffer at its block and the output's at the fused rows `k0_pay1` of the three input blocks; the plain invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 1 t) (iblk0 V c 2 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 1 t) (iblk0 V c 2 t) (iblk0 V c 0 t) := by dsimp only [dat0]

/-- Each input's current staging buffer holds its block at every point, whether or not the pipeline fetched it there
    (the factor A is fetched at the first point only: its block index never moves). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the run applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_fuse c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Acc.lean ====
/-
  The matmul call (the program's second kernel region), as the pipeline runs it.

  The grid is 8 × 4 × 4 (row block i, column block j, contraction block k; k runs fastest, so point t has k = t mod 4).
  Point t stages the 1024×1024 block (i, k) of the activations (window 0), the block (j, k) of the fused weight
  (window 1), the 1×1024 block (0, j) of the bias row (window 2), and owns block (i, j) of the result (window 3), which
  the pipeline writes back at the points with k = 3 only.  The body keeps a 1024×1024 accumulator in a scratch buffer
  of its own, carried from point to point:

      k = 0        : the accumulator is reset to zero             (payload `k1_pay1`)
      every point  : acc ← acc + x_blk · w_blkᵀ                   (payload `k1_pay2 x_blk w_blk acc`)
      k = 3        : the result block ← acc + bias row, on every row   (payload `k1_pay3 acc bias_blk`)

  so the accumulator after point t (`accAt`) is `k1_pay2` of the point's two blocks over zero when k = 0 and over
  what the point before left otherwise, and the invariant between points carries the scratch buffer at exactly that.
  At the points with k ≠ 3 the result window is idle: the body stores nothing into it and it is not written back.
  Everything is stated for any float instance `F` and at a PARAMETER `V`, the core's buffer contents at region entry.
-/
import proofs.«117131_j27023934227119_1_alg».proof.Proof.Gen.Kernel.Launch
import proofs.«117131_j27023934227119_1_alg».proof.Proof.Gen.Kernel.Skeleton
import proofs.«117131_j27023934227119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two branch conditions, over the grid -/

/-- "This is the first contraction block" (k = 0), as the body computes it from the grid coordinates. -/
abbrev isFirst (i : grid1.Coords) : Prop :=
  (Scalar.cmpi .ne (Scalar.extui (Scalar.cmpi .eq (BitVec.ofNat 32 (i 2).val) 0#32)) 0#32) = 1#1
/-- "This is the last contraction block" (k = 3), as the body computes it. -/
abbrev isLast (i : grid1.Coords) : Prop := k1_cond2 i = 1#1

/-- k = 0 exactly at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)
/-- k = 3 exactly at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## The accumulator, point by point -/

/-- What the scratch accumulator holds after the body at position `n`. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else accAt c n (Nat.lt_of_succ_lt hn))

/-- At a point with k = 0 the accumulator restarts from zero. -/
theorem accAt_first (c : Dev nD) (t : Fin cfg1.N) (h : t.val % 4 = 0) :
    accAt V c t.val t.isLt = k1_pay2 (iblk1 V c 0 t) (iblk1 V c 1 t) (k1_pay1 (F := F)) := by
  obtain ⟨n, hn⟩ := t
  cases n with
  | zero => rfl
  | succ n =>
    show k1_pay2 _ _ (if (n + 1) % 4 = 0 then _ else _) = _
    rw [if_pos h]

/-- At any other point it adds to what the point before left. -/
theorem accAt_next (c : Dev nD) (t : Fin cfg1.N) (h : ¬ t.val % 4 = 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod 4) h
  | succ n =>
    show k1_pay2 _ _ (if (n + 1) % 4 = 0 then _ else _) = _
    rw [if_neg h]
    rfl

/-! ## The region invariant: the carried scratch -/

/-- The kernel's scratch operand, a whole scoped buffer of its own. -/
abbrev scM : Memref sig .tc .vmem S1024x1024 .f32 := Memref.whole cc1_scratch0

/-- The core's scoped buffers that are neither a staging buffer of this call nor its scratch, at any contents each. -/
abbrev restBut (c : Dev nD) : sProp 𝕄 :=
  Pipeline.scopedRestBut (Ix := Unit) (Name := ℕ) (U := UR sig nD τ) (Lvl := ℕ) (Val := Elt F) spec1 c [cc1_scratch0]

/-- The plain region invariant with the scratch split out as an owned memref at some contents. -/
theorem PhiA1_eq (c : Dev nD) :
    (Pipeline.ΦA spec1 c : sProp 𝕄)
      = iprop((∃ d, owns (c : Thread nD τ) scM fullShare d) ∗ restBut (F := F) c ∗ (∃ r, prngReg c r)) := by
  unfold Pipeline.ΦA
  rw [Pipeline.scopedRest_split_of_list spec1 c [cc1_scratch0] (by decide) (by decide)]
  rw [bigSepL_singleton]
  simp only [owns_whole]
  exact BI.equiv_iff.mp ⟨BI.sep_assoc, BI.sep_assoc'⟩

/-- The invariant before position `n`: before the first point the plain one (the scratch at anything); afterwards the
    scratch at what the point before left in it, the other scoped buffers at anything, the generator register. -/
def PhiAcc (c : Dev nD) : (n : ℕ) → n ≤ cfg1.N → sProp 𝕄
  | 0, _ => Pipeline.ΦA spec1 c
  | n + 1, hn => iprop(owns (c : Thread nD τ) scM fullShare (accAt V c n hn) ∗ restBut (F := F) c ∗ (∃ r, prngReg c r))

/-- Before any position but the first: the scratch at what the point before left. -/
theorem PhiAcc_pos (c : Dev nD) (n : ℕ) (h : n ≤ cfg1.N) (hz : n ≠ 0) :
    PhiAcc V c n h = iprop(owns (c : Thread nD τ) scM fullShare (accAt V c (n - 1) (by omega))
      ∗ restBut (F := F) c ∗ (∃ r, prngReg c r)) := by
  cases n with
  | zero => exact absurd rfl hz
  | succ n => rfl

/-! ## The proof data -/

/-- The proof data of the call on core `c`: the arrays as the region finds them; after the body at point `t` each input's
    buffer at its block and the result's at `k1_pay3` of the accumulator and the bias block (consulted only where
    k = 3: elsewhere the window is idle and not written back); the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (iblk1 V c 2 t) := by dsimp only [dat1]

/-! ## The body, case by case, on whole memrefs -/

/-- The zero offsets, as the kernel spells them. -/
theorem hz2 : (![0, 0] : Fin 2 → Nat) = fun _ => 0 := by funext a; fin_cases a <;> rfl

set_option maxHeartbeats 1000000 in
/-- A point with k = 0: the accumulator is reset, then takes the product of the two blocks; the bias and result buffers
    are not touched. -/
theorem run_first (c : Dev nD) (E : Set ℕ) (i : grid1.Coords) (hc0 : isFirst i) (hc1 : ¬ isLast i)
    (arg3 : Memref sig .tc .vmem S1024x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x1024 .f32) (w : Vec F S1024x1024 .bf16) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  subst hf3; subst hf4
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  rw [View.read_writes_eq_canon _ _ _ (fun y => ⟨_, List.Mem.head _, View.mem_set_unit_zero hz2 inb_S1024x1024_S1024x1024_0_0 y⟩),
    View.canon_cons_unit_zero hz2]
  sl_unfold_words
  simp only [View.readAt_eq_ld, View.ld_unit_zero (S := S1024x1024) hz2, View.readCov_unit_zero (S := S1024x1024) _ hz2]

set_option maxHeartbeats 1000000 in
/-- A point with k = 1 or 2: the accumulator, at `acc`, takes the product of the two blocks on top; the bias and result
    buffers are not touched. -/
theorem run_mid (c : Dev nD) (E : Set ℕ) (i : grid1.Coords) (hc0 : ¬ isFirst i) (hc1 : ¬ isLast i)
    (arg3 : Memref sig .tc .vmem S1024x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x1024 .f32) (w : Vec F S1024x1024 .bf16) (acc : Vec F S1024x1024 .f32) (K : PUnit → sProp 𝕄) :
    iprop(owns (c : Thread nD τ) arg3 fullShare x ∗ owns (c : Thread nD τ) arg4 fullShare w ∗ owns (c : Thread nD τ) arg7 fullShare acc
        ∗ (iprop(owns (c : Thread nD τ) arg3 fullShare x ∗ owns (c : Thread nD τ) arg4 fullShare w
            ∗ owns (c : Thread nD τ) arg7 fullShare (k1_pay2 x w acc)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  subst hf3; subst hf4; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  rw [View.read_writes_eq_canon _ _ _ (fun y => ⟨_, List.Mem.head _, View.mem_set_unit_zero hz2 inb_S1024x1024_S1024x1024_0_0 y⟩),
    View.canon_cons_unit_zero hz2]
  sl_unfold_words
  simp only [View.readAt_eq_ld, View.ld_unit_zero (S := S1024x1024) hz2, View.readCov_unit_zero (S := S1024x1024) _ hz2]

set_option maxHeartbeats 1000000 in
/-- A point with k = 3: the accumulator, at `acc`, takes the product of the two blocks on top, and the result buffer
    takes the new accumulator plus the bias row `b` on every row. -/
theorem run_last (c : Dev nD) (E : Set ℕ) (i : grid1.Coords) (hc0 : ¬ isFirst i) (hc1 : isLast i)
    (arg3 : Memref sig .tc .vmem S1024x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x1024 .f32) (w : Vec F S1024x1024 .bf16) (b : Vec F S1x1024 .f32) (acc : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare acc
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w acc) b)
            ∗ owns (c : Thread nD τ) arg7 fullShare (k1_pay2 x w acc)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.Mem.head _, View.mem_set_unit_zero hz2 inb_S1024x1024_S1024x1024_0_0 y⟩),
      View.canon_cons_unit_zero hz2]
    sl_unfold_words
    simp only [View.readAt_eq_ld, View.ld_unit_zero (S := S1024x1024) hz2, View.ld_unit_zero (S := S1x1024) hz2,
      View.readCov_unit_zero (S := S1024x1024) _ hz2]
  iexists _; isplitr
  swap; · iexact H7
  ipureintro
  sl_unfold_words
  rw [View.read_writes_eq_canon _ _ _ (fun y => ⟨_, List.Mem.head _, View.mem_set_unit_zero hz2 inb_S1024x1024_S1024x1024_0_0 y⟩),
    View.canon_cons_unit_zero hz2]
  simp only [View.readAt_eq_ld, View.ld_unit_zero (S := S1024x1024) hz2, View.readCov_unit_zero (S := S1024x1024) _ hz2]

/-! ## What the body finds in the inputs' buffers, and where the result window is idle -/

/-- Each input's current staging buffer holds its block at every point, whether or not the pipeline fetched it there
    (the bias block is fetched at the points with k = 0 only: its block index does not move with k). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Away from k = 3 the result window is idle, -/
theorem idle1_3 (t : Fin cfg1.N) (h : ¬ t.val % 4 = 3) : cfg1.idle 3 (cfg1.grid.coords t) = true := by
  show (!(k1_cond2 (grid1.coords t) == 1#1)) = true
  rw [Bool.not_eq_true', beq_eq_false_iff_ne]
  exact fun h' => h ((isLast_iff t).mp h')
/-- and is not written back; -/
theorem noFlush1_3 (t : Fin cfg1.N) (h : ¬ t.val % 4 = 3) : (cfg1.win 3).flush t = false :=
  Bool.eq_false_iff.mpr fun hf => h ((flush1_3 t).mp hf)
/-- at k = 3 it is live. -/
theorem live1_3 (t : Fin cfg1.N) (h : t.val % 4 = 3) : cfg1.idle 3 (cfg1.grid.coords t) = false := by
  show (!(k1_cond2 (grid1.coords t) == 1#1)) = false
  rw [Bool.not_eq_false', beq_iff_eq]
  exact (isLast_iff t).mpr h

/-- Before any position the invariant holds the scratch at some contents. -/
theorem PhiAcc_any (c : Dev nD) (n : ℕ) (h : n ≤ cfg1.N) :
    PhiAcc V c n h ⊢ iprop((∃ d, owns (c : Thread nD τ) scM fullShare d) ∗ restBut (F := F) c ∗ (∃ r, prngReg c r)) := by
  cases n with
  | zero =>
    rw [show PhiAcc V c 0 h = Pipeline.ΦA spec1 c from rfl, PhiA1_eq]
  | succ n =>
    rw [show PhiAcc V c (n + 1) h = iprop(owns (c : Thread nD τ) scM fullShare (accAt V c n h)
      ∗ restBut (F := F) c ∗ (∃ r, prngReg c r)) from rfl]
    iintro ⟨HS, Hr⟩
    isplitl [HS]; · iexists _; iexact HS
    iexact Hr

/-! ## The body obligation and the invariant's two ends -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the result's buffer as found where the window is idle, at the stored block where it is live. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1000000 in
/-- The body at any point: the inputs' memrefs hold their blocks; the closed forms of the two conditions say which of
    the three cases the point is in; the invariant hands over the scratch (at anything where k = 0, else at what the point
    before left) and takes it back at this point's accumulator; what the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(owns (c : Thread nD τ) scM fullShare (accAt V c t.val t.isLt)
      ∗ restBut (F := F) c ∗ (∃ r, prngReg c r)) from rfl,
    show (dat1 V c).Φ t.castSucc = PhiAcc V c t.val (Nat.le_of_lt t.isLt) from rfl,
    after1_0, after1_1, after1_2]
  by_cases h0 : t.val % 4 = 0
  · -- k = 0: the scratch is handed over at anything
    have h3 : ¬ t.val % 4 = 3 := by omega
    rw [Dat.leavesExact_idle (dat1 V c) 3 t (idle1_3 t h3) (noFlush1_3 t h3), accAt_first V c t h0]
    refine BIBase.Entails.trans (sep_mono_left (PhiAcc_any V c t.val (Nat.le_of_lt t.isLt))) ?_
    iintro ⟨⟨HS, Hr, Hg⟩, Ho, ⟨%d0, H0⟩, ⟨%d1, H1⟩, ⟨%d2, H2⟩, H3⟩
    iapply (run_first c Set.univ (grid1.coords t) ((isFirst_iff t).mpr h0) (fun h => h3 ((isLast_iff t).mp h))
      _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · have hz : t.val ≠ 0 := fun e => h0 (by rw [e])
    by_cases h3 : t.val % 4 = 3
    · -- k = 3: the scratch comes at what the point before left; the result block is stored
      rw [show (dat1 V c).leavesExact 3 t = owns (c : Thread nD τ) (st1_3 t) fullShare ((dat1 V c).after 3 t) from by
        unfold Dat.leavesExact; rw [live1_3 t h3], after1_3, accAt_next V c t h0, PhiAcc_pos V c t.val (Nat.le_of_lt t.isLt) hz]
      iintro ⟨⟨HS, Hr, Hg⟩, Ho, ⟨%d0, H0⟩, ⟨%d1, H1⟩, ⟨%d2, H2⟩, ⟨%d3, H3⟩⟩
      iapply (run_last c Set.univ (grid1.coords t) (fun h => h0 ((isFirst_iff t).mp h)) ((isLast_iff t).mpr h3)
        _ _ _ _ _ _ _ _ _ _ (iblk1 V c 0 t) (iblk1 V c 1 t) (iblk1 V c 2 t)
        (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- k = 1, 2: the scratch comes at what the point before left; the result buffer is handed back as found
      rw [Dat.leavesExact_idle (dat1 V c) 3 t (idle1_3 t h3) (noFlush1_3 t h3), accAt_next V c t h0,
        PhiAcc_pos V c t.val (Nat.le_of_lt t.isLt) hz]
      iintro ⟨⟨HS, Hr, Hg⟩, Ho, ⟨%d0, H0⟩, ⟨%d1, H1⟩, ⟨%d2, H2⟩, H3⟩
      iapply (run_mid c Set.univ (grid1.coords t) (fun h => h0 ((isFirst_iff t).mp h)) (fun h => h3 ((isLast_iff t).mp h))
        _ _ _ _ _ _ _ _ _ _ (iblk1 V c 0 t) (iblk1 V c 1 t)
        (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := by
  intro t
  rw [bigSep_W1, bigSep_W1]
  exact sound_body1 V c t

/-- What the region is entered with is the invariant before the first point. -/
theorem hin1 (c : Dev nD) : Pipeline.ΦA spec1 c ⊢ (dat1 (F := F) V c).Φ 0 := by
  rw [show (dat1 V c).Φ 0 = PhiAcc V c 0 (Nat.zero_le _) from rfl]
  exact Idealize.SL.BI.Entails.refl _

/-- After the last point the invariant gives the plain one back: the scratch's contents are forgotten. -/
theorem hout1 (c : Dev nD) : (dat1 (F := F) V c).Φ (Fin.last cfg1.N) ⊢ Pipeline.ΦA spec1 c := by
  rw [show (dat1 V c).Φ (Fin.last cfg1.N) = PhiAcc V c cfg1.N (Nat.le_refl _) from rfl]
  rw [PhiAcc_pos V c _ _ (by rw [show cfg1.N = 128 from N_1]; decide), PhiA1_eq]
  iintro ⟨HS, Hr, Hg⟩
  isplitl [HS]; · iexists _; iexact HS
  isplitl [Hr]; · iexact Hr
  iexact Hg

end Cert.Kernel.Hand

end
-- ==== Proof.K.Run.lean ====
/-
  The whole run of @main.  On each core @main is four items in order: two reshapes (the activations' rows flattened,
  the bias made a one-row matrix), the weight-fusing kernel region, the matmul kernel region, and a last reshape of the
  result back to three axes.  Between items the core's unscoped buffers hold:

      bnd0 : the launch memory
      bnd1 : bnd0 after the two reshapes                       (region 0's entry contents)
      bnd2 : bnd1 with region 0's arrays at what its write-backs leave   (region 1's entry contents)
      bnd3 : bnd2 with region 1's arrays at what its write-backs leave
      bnd4 : bnd3 after the last reshape

  Each region is entered from "every unscoped buffer at the boundary's contents, the generator register at some state,
  nothing owed" and left at the same with the next boundary's contents; its arrays are split out of the unscoped
  buffers at entry and put back at exit; the generator register (and, for the matmul region, the scratch inside the
  scoped rest) go into the region invariant and come back.  The launch theorem for a list of segments then gives: every
  weakly fair execution terminates, nothing faults, and the final memory holds every unscoped buffer at `bnd4`.  From
  that one run the frame (no item writes an argument) and the result's value (`bnd4` at the result buffer) are read.
-/
import proofs.«117131_j27023934227119_1_alg».proof.Proof.K.Fuse
import proofs.«117131_j27023934227119_1_alg».proof.Proof.K.Acc
import proofs.«117131_j27023934227119_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev bnd0 : Dev nD → Valuation τ sig (Elt F) := fun c b => (s₀ m ρ).mem ((c : Dev nD), b)
/-- After the two reshapes. -/
abbrev bnd1 : Dev nD → Valuation τ sig (Elt F) := fun c => StableHlo.after hostOps0 (bnd0 m ρ c)
/-- The same read at the TensorCore's references: what the weight-fusing region's proof data take. -/
abbrev ent0 : (c : Dev nD) → (b : Ref sig .tc) → Buf (Elt F) ((c : Thread nD τ).loc b) := fun c b => bnd1 m ρ c b
/-- At the weight-fusing region's exit: its arrays at what the pipeline leaves, every other buffer as entered. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
/-- The same read at the TensorCore's references: what the matmul region's proof data take. -/
abbrev ent1 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ent1 m ρ c (Pipeline.arrRef spec0 w) :=
  (bnd2_arr m ρ c w).symm
theorem hrest0 (c : Dev nD) : ∀ b, b ∉ Finset.univ.image (Pipeline.arrRef spec0) → ent1 m ρ c b = ent0 m ρ c b :=
  fun b hb => bnd2_of_ne m ρ c b fun w e => hb (Finset.mem_image.mpr ⟨w, Finset.mem_univ _, e⟩)

/-- At the matmul region's exit. -/
def bnd3 (c : Dev nD) : Valuation τ sig (Elt F) :=
  Pipeline.withArrays spec1 c (bnd2 m ρ c) fun w => (dat1 (ent1 m ρ) c).arrAt w cfg1.N
theorem bnd3_arr (c : Dev nD) (w : Fin cfg1.W) :
    bnd3 m ρ c (Proc.devRef .tc (Pipeline.arrRef spec1 w)) = (dat1 (ent1 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
/-- The same read at the TensorCore's references. -/
abbrev ext1 : (c : Dev nD) → (b : Ref sig .tc) → Buf (Elt F) ((c : Thread nD τ).loc b) := fun c b => bnd3 m ρ c b
theorem hF1 (c : Dev nD) (w : Fin cfg1.W) : (dat1 (ent1 m ρ) c).arrAt w cfg1.N = ext1 m ρ c (Pipeline.arrRef spec1 w) :=
  (bnd3_arr m ρ c w).symm
theorem hrest1 (c : Dev nD) : ∀ b, b ∉ Finset.univ.image (Pipeline.arrRef spec1) → ext1 m ρ c b = ent1 m ρ c b :=
  fun b hb => bnd3_of_ne m ρ c b fun w e => hb (Finset.mem_image.mpr ⟨w, Finset.mem_univ _, e⟩)

/-- After the last reshape. -/
abbrev bnd4 : Dev nD → Valuation τ sig (Elt F) := fun c => StableHlo.after hostOps2 (bnd3 m ρ c)

/-! ## The proof data family and the thread state -/

/-- Both pipelines' proof data, each at its region's entry contents. -/
def pdat : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every item: the generator register at some state, and the core owing nothing. -/
abbrev Rd (c : Dev nD) : sProp 𝕄 := iprop((∃ r, prngReg c r) ∗ ∃ W, owes (c : Thread nD τ) (0 : CellTallies nD τ sig Unit) W)
/-- A stretch of host operations as a segment, from the contents `W`, `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `bnd4`, the generator register. -/
abbrev Tend (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- The weight-fusing region: entered from every unscoped buffer at `bnd1`, left at `bnd2`. -/
def reg0 : Pipeline.RegionSeg (pcfgs (F := F)) adm (pdat m ρ) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ Lv lvl 0 fun _ _ => rfl
  pre c := iprop(StableHlo.held (c : Thread nD τ) (Pipeline.ucRefs τ sig) (bnd1 m ρ c) ∗ Rd c)
  post c := iprop(StableHlo.held (c : Thread nD τ) (Pipeline.ucRefs τ sig) (bnd2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (ent0 m ρ c) (ent1 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `bnd2`, left at `bnd3`.  What it is entered with (the
    generator register, the scoped rest) is the invariant before the first point (`hin1`); after the last point the
    invariant forgets the accumulator and gives the same back (`hout1`). -/
def reg1 : Pipeline.RegionSeg (pcfgs (F := F)) adm (pdat m ρ) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ Lv lvl 1 fun _ _ => rfl
  pre c := iprop(StableHlo.held (c : Thread nD τ) (Pipeline.ucRefs τ sig) (bnd2 m ρ c) ∗ Rd c)
  post c := iprop(StableHlo.held (c : Thread nD τ) (Pipeline.ucRefs τ sig) (bnd3 m ρ c) ∗ Rd c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (ent1 m ρ) c)
    unfold Pipeline.ΦA
    iintro ⟨Hp, -, Hr⟩
    isplitl [Hr]; · iexact Hr
    iexact Hp
  hout c := by
    rw [Pipeline.ownSems0_none]
    refine (hout1 (ent1 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (ent1 m ρ c) (ext1 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (pdat m ρ) () defs₀ 𝒱₀ Lv lvl) :=
  [ .host (hseg hostOps0 hostOps0_sub hostOps0_fresh (bnd0 m ρ)),
    .region (reg0 m ρ),
    .region (reg1 m ρ),
    .host (hseg hostOps2 hostOps2_sub hostOps2_fresh (bnd3 m ρ)) ]
/-- @main IS the run of the items. -/
theorem main_items (c : Dev nD) : main (F := F) c = Pipeline.Seg.run (items m ρ) := (main_chain c).trans (by chain_rfl)

set_option backward.isDefEq.respectTransparency.types false in
/-- THE RUN: from any memory with zero counters every weakly fair execution of @main terminates, nothing faulting, and
    the final memory holds every unscoped buffer of every core at `bnd4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdat m ρ) () cellOf_inj emb₁ defs₀ 𝒱₀ Lv lvl m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ Rd c)) (Tₙ := Tend m ρ)
    (hch := ⟨fun _ => .rfl, fun _ => .rfl, fun _ => .rfl, fun _ => .rfl, fun c => by
      show iprop(StableHlo.held (c : Thread nD τ) (Pipeline.ucRefs τ sig) (bnd4 m ρ c) ∗ Rd c)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lv lvl fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h c => h c)

end Cert.Kernel.Hand

end
-- ==== Proof.K.Frame.lean ====
/-
  The frame, read off the run.  No item of @main writes an argument array: the three reshapes write only their own
  results, the weight-fusing region reads W, B and A through input windows (an input window's array is never written
  back) and bypasses x and bias, the matmul region touches no argument at all.  So the final contents of each argument,
  walked back boundary by boundary, are its launch contents.
-/
import proofs.«117131_j27023934227119_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first two reshapes write only their results. -/
theorem bnd1_of (c : Dev nD) (r : Ref sig .tc) (h : r ∉ hostOps0_W) :
    bnd1 m ρ c (Proc.devRef .tc r) = bnd0 m ρ c (Proc.devRef .tc r) :=
  StableHlo.after_of_writes_sub hostOps0 _ hostOps0_writes h
/-- The last reshape writes only its result. -/
theorem bnd4_of (c : Dev nD) (r : Ref sig .tc) (h : r ∉ hostOps2_W) :
    bnd4 m ρ c (Proc.devRef .tc r) = bnd3 m ρ c (Proc.devRef .tc r) :=
  StableHlo.after_of_writes_sub hostOps2 _ hostOps2_writes h
/-- An input window's array leaves the weight-fusing region as it entered. -/
theorem bnd2_in (c : Dev nD) (w : Fin cfg0.W) (hw : (cfg0.win w).isOut = false) :
    bnd2 m ρ c (Proc.devRef .tc (Pipeline.arrRef spec0 w)) = bnd1 m ρ c (Proc.devRef .tc (Pipeline.arrRef spec0 w)) :=
  (bnd2_arr m ρ c w).trans (((dat0 (ent0 m ρ) c).arrAt_in w hw _).trans (A_eq0 (ent0 m ρ) c w))
/-- An input window's array leaves the matmul region as it entered. -/
theorem bnd3_in (c : Dev nD) (w : Fin cfg1.W) (hw : (cfg1.win w).isOut = false) :
    bnd3 m ρ c (Proc.devRef .tc (Pipeline.arrRef spec1 w)) = bnd2 m ρ c (Proc.devRef .tc (Pipeline.arrRef spec1 w)) :=
  (bnd3_arr m ρ c w).trans (((dat1 (ent1 m ρ) c).arrAt_in w hw _).trans (A_eq1 (ent1 m ρ) c w))

theorem bnd4_main_arg0 (c : Dev nD) : bnd4 m ρ c (Proc.devRef .tc main_arg0) = m ((c : Thread nD τ).loc main_arg0) :=
  (bnd4_of m ρ c main_arg0 (by decide)).trans <| (bnd3_of_ne m ρ c main_arg0 (by decide)).trans <|
    (bnd2_of_ne m ρ c main_arg0 (by decide)).trans <| (bnd1_of m ρ c main_arg0 (by decide)).trans rfl
theorem bnd4_main_arg1 (c : Dev nD) : bnd4 m ρ c (Proc.devRef .tc main_arg1) = m ((c : Thread nD τ).loc main_arg1) :=
  (bnd4_of m ρ c main_arg1 (by decide)).trans <| (bnd3_of_ne m ρ c main_arg1 (by decide)).trans <|
    (bnd2_in m ρ c 0 rfl).trans <| (bnd1_of m ρ c main_arg1 (by decide)).trans rfl
theorem bnd4_main_arg2 (c : Dev nD) : bnd4 m ρ c (Proc.devRef .tc main_arg2) = m ((c : Thread nD τ).loc main_arg2) :=
  (bnd4_of m ρ c main_arg2 (by decide)).trans <| (bnd3_of_ne m ρ c main_arg2 (by decide)).trans <|
    (bnd2_of_ne m ρ c main_arg2 (by decide)).trans <| (bnd1_of m ρ c main_arg2 (by decide)).trans rfl
theorem bnd4_main_arg3 (c : Dev nD) : bnd4 m ρ c (Proc.devRef .tc main_arg3) = m ((c : Thread nD τ).loc main_arg3) :=
  (bnd4_of m ρ c main_arg3 (by decide)).trans <| (bnd3_of_ne m ρ c main_arg3 (by decide)).trans <|
    (bnd2_in m ρ c 2 rfl).trans <| (bnd1_of m ρ c main_arg3 (by decide)).trans rfl
theorem bnd4_main_arg4 (c : Dev nD) : bnd4 m ρ c (Proc.devRef .tc main_arg4) = m ((c : Thread nD τ).loc main_arg4) :=
  (bnd4_of m ρ c main_arg4 (by decide)).trans <| (bnd3_of_ne m ρ c main_arg4 (by decide)).trans <|
    (bnd2_in m ρ c 1 rfl).trans <| (bnd1_of m ρ c main_arg4 (by decide)).trans rfl

/-- What the final memory holds at the arguments: their launch contents. -/
theorem args_kept {r : PUnit × MemSt nD τ sig (Elt F)}
    (h : ∀ c : Dev nD, ∀ b ∈ Pipeline.ucRefs τ sig, r.2.mem (((c : Thread nD τ)).1, b) = bnd4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c _ (mem_uc main_arg0 (by decide))).trans (bnd4_main_arg0 m ρ c),
    (h c _ (mem_uc main_arg1 (by decide))).trans (bnd4_main_arg1 m ρ c),
    (h c _ (mem_uc main_arg2 (by decide))).trans (bnd4_main_arg2 m ρ c),
    (h c _ (mem_uc main_arg3 (by decide))).trans (bnd4_main_arg3 m ρ c),
    (h c _ (mem_uc main_arg4 (by decide))).trans (bnd4_main_arg4 m ρ c)⟩

/-- THE FRAME, at any float instance: @main runs to the end, nothing faults, the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m ρ h c) (run_main m ρ)

end Cert.Kernel.Hand

end
-- ==== Proof.KI.Fuse.lean ====
/-
  The weight-fusing call (the program's first kernel region), as the pipeline runs it.

  The grid has 16 points; point t stages rows [256 t, 256 t + 256) of the base weight W (window 0) and of the
  low-rank factor B (window 1), the whole factor A (window 2, staged once), and writes back the same rows of the
  fused weight (window 3).  The body loads the three input blocks and stores, over the whole output block,

      fused = W_blk + (B_blk · A) * (1/16)            (one pure term of the three loads: `k0_pay1`)

  so after the body the output's staging buffer holds `k0_pay1` of the three input blocks at the point, and each
  input's buffer still holds its block.  Nothing is carried between points, nothing is owed, the kernel has no
  semaphore of its own: the region invariant is the plain one (the scoped buffers no window stages, at any contents,
  and the generator register).  Everything here is stated for any float instance `F` and at a PARAMETER `V`, the
  core's buffer contents when the region is entered.
-/
import proofs.«117131_j27023934227119_1_alg».proof.Proof.Gen.KernelIdeal.Launch
import proofs.«117131_j27023934227119_1_alg».proof.Proof.Gen.KernelIdeal.Skeleton
import proofs.«117131_j27023934227119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body on whole staging memrefs -/

/-- The rectangle every access of the body goes through: the whole 256×4096 buffer. -/
abbrev rW : Rect S256x4096 := Rect.unit (s := S256x4096) ![0, 0] S256x4096.size inb_S256x4096_S256x4096_0_0

/-- One store over the whole buffer covers it. -/
theorem coverW (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

set_option maxHeartbeats 1000000 in
/-- The body, on whole staging memrefs holding a block `w` of W, a block `b` of B and the factor `a`, the output's at
    anything: it runs to the continuation with the inputs as they were and the output's buffer at `k0_pay1 b a w`. -/
theorem run_fuse (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x4096 .bf16) (harg4 : arg4.IsWhole)
    (w : Vec F S256x4096 .f32) (b : Vec F S256x16 .f32) (a : Vec F S16x4096 .f32) (K : PUnit → sProp 𝕄) :
    iprop(owns (c : Thread nD τ) arg1 fullShare w ∗ owns (c : Thread nD τ) arg2 fullShare b ∗ owns (c : Thread nD τ) arg3 fullShare a
        ∗ (∃ d, owns (c : Thread nD τ) arg4 fullShare d)
        ∗ (iprop(owns (c : Thread nD τ) arg1 fullShare w ∗ owns (c : Thread nD τ) arg2 fullShare b ∗ owns (c : Thread nD τ) arg3 fullShare a
            ∗ owns (c : Thread nD τ) arg4 fullShare (k0_pay1 b a w)) -∗ K ⟨⟩))
      ⊢ wp frame (wpE (defs₀ (F := F)) Variants.none c none) E (cc0__fuse_weight_kernel i arg1 harg1 arg2 harg2 arg3 harg3 arg4 harg4) K := by
  simp only [cc0__fuse_weight_kernel_eq_skeleton]; unfold cc0__fuse_weight_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → Nat) = fun _ => 0 := by funext a; fin_cases a <;> rfl
  rw [View.read_writes_eq_canon _ _ _ (fun y => ⟨_, List.mem_singleton_self _, View.mem_set_unit_zero hz inb_S256x4096_S256x4096_0_0 y⟩),
    View.canon_unit_zero hz]
  simp only [View.readAt_eq_ld, View.ld_unit_zero (S := S256x16) hz, View.ld_unit_zero (S := S16x4096) hz,
    View.ld_unit_zero (S := S256x4096) hz]

/-! ## The proof data -/

/-- The proof data of the call on core `c`: the arrays as the region finds them; after the body at point `t` each input's
    buffer at its block and the output's at the fused rows `k0_pay1` of the three input blocks; the plain invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 1 t) (iblk0 V c 2 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 1 t) (iblk0 V c 2 t) (iblk0 V c 0 t) := by dsimp only [dat0]

/-- Each input's current staging buffer holds its block at every point, whether or not the pipeline fetched it there
    (the factor A is fetched at the first point only: its block index never moves). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the run applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_fuse c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Acc.lean ====
/-
  The matmul call (the program's second kernel region), as the pipeline runs it.

  The grid is 8 × 4 × 4 (row block i, column block j, contraction block k; k runs fastest, so point t has k = t mod 4).
  Point t stages the 1024×1024 block (i, k) of the activations (window 0), the block (j, k) of the fused weight
  (window 1), the 1×1024 block (0, j) of the bias row (window 2), and owns block (i, j) of the result (window 3), which
  the pipeline writes back at the points with k = 3 only.  The body keeps a 1024×1024 accumulator in a scratch buffer
  of its own, carried from point to point:

      k = 0        : the accumulator is reset to zero             (payload `k1_pay1`)
      every point  : acc ← acc + x_blk · w_blkᵀ                   (payload `k1_pay2 x_blk w_blk acc`)
      k = 3        : the result block ← acc + bias row, on every row   (payload `k1_pay3 acc bias_blk`)

  so the accumulator after point t (`accAt`) is `k1_pay2` of the point's two blocks over zero when k = 0 and over
  what the point before left otherwise, and the invariant between points carries the scratch buffer at exactly that.
  At the points with k ≠ 3 the result window is idle: the body stores nothing into it and it is not written back.
  Everything is stated for any float instance `F` and at a PARAMETER `V`, the core's buffer contents at region entry.
-/
import proofs.«117131_j27023934227119_1_alg».proof.Proof.Gen.KernelIdeal.Launch
import proofs.«117131_j27023934227119_1_alg».proof.Proof.Gen.KernelIdeal.Skeleton
import proofs.«117131_j27023934227119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two branch conditions, over the grid -/

/-- "This is the first contraction block" (k = 0), as the body computes it from the grid coordinates. -/
abbrev isFirst (i : grid1.Coords) : Prop :=
  (Scalar.cmpi .ne (Scalar.extui (Scalar.cmpi .eq (BitVec.ofNat 32 (i 2).val) 0#32)) 0#32) = 1#1
/-- "This is the last contraction block" (k = 3), as the body computes it. -/
abbrev isLast (i : grid1.Coords) : Prop := k1_cond2 i = 1#1

/-- k = 0 exactly at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)
/-- k = 3 exactly at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## The accumulator, point by point -/

/-- What the scratch accumulator holds after the body at position `n`. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else accAt c n (Nat.lt_of_succ_lt hn))

/-- At a point with k = 0 the accumulator restarts from zero. -/
theorem accAt_first (c : Dev nD) (t : Fin cfg1.N) (h : t.val % 4 = 0) :
    accAt V c t.val t.isLt = k1_pay2 (iblk1 V c 0 t) (iblk1 V c 1 t) (k1_pay1 (F := F)) := by
  obtain ⟨n, hn⟩ := t
  cases n with
  | zero => rfl
  | succ n =>
    show k1_pay2 _ _ (if (n + 1) % 4 = 0 then _ else _) = _
    rw [if_pos h]

/-- At any other point it adds to what the point before left. -/
theorem accAt_next (c : Dev nD) (t : Fin cfg1.N) (h : ¬ t.val % 4 = 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod 4) h
  | succ n =>
    show k1_pay2 _ _ (if (n + 1) % 4 = 0 then _ else _) = _
    rw [if_neg h]
    rfl

/-! ## The region invariant: the carried scratch -/

/-- The kernel's scratch operand, a whole scoped buffer of its own. -/
abbrev scM : Memref sig .tc .vmem S1024x1024 .f32 := Memref.whole cc1_scratch0

/-- The core's scoped buffers that are neither a staging buffer of this call nor its scratch, at any contents each. -/
abbrev restBut (c : Dev nD) : sProp 𝕄 :=
  Pipeline.scopedRestBut (Ix := Unit) (Name := ℕ) (U := UR sig nD τ) (Lvl := ℕ) (Val := Elt F) spec1 c [cc1_scratch0]

/-- The plain region invariant with the scratch split out as an owned memref at some contents. -/
theorem PhiA1_eq (c : Dev nD) :
    (Pipeline.ΦA spec1 c : sProp 𝕄)
      = iprop((∃ d, owns (c : Thread nD τ) scM fullShare d) ∗ restBut (F := F) c ∗ (∃ r, prngReg c r)) := by
  unfold Pipeline.ΦA
  rw [Pipeline.scopedRest_split_of_list spec1 c [cc1_scratch0] (by decide) (by decide)]
  rw [bigSepL_singleton]
  simp only [owns_whole]
  exact BI.equiv_iff.mp ⟨BI.sep_assoc, BI.sep_assoc'⟩

/-- The invariant before position `n`: before the first point the plain one (the scratch at anything); afterwards the
    scratch at what the point before left in it, the other scoped buffers at anything, the generator register. -/
def PhiAcc (c : Dev nD) : (n : ℕ) → n ≤ cfg1.N → sProp 𝕄
  | 0, _ => Pipeline.ΦA spec1 c
  | n + 1, hn => iprop(owns (c : Thread nD τ) scM fullShare (accAt V c n hn) ∗ restBut (F := F) c ∗ (∃ r, prngReg c r))

/-- Before any position but the first: the scratch at what the point before left. -/
theorem PhiAcc_pos (c : Dev nD) (n : ℕ) (h : n ≤ cfg1.N) (hz : n ≠ 0) :
    PhiAcc V c n h = iprop(owns (c : Thread nD τ) scM fullShare (accAt V c (n - 1) (by omega))
      ∗ restBut (F := F) c ∗ (∃ r, prngReg c r)) := by
  cases n with
  | zero => exact absurd rfl hz
  | succ n => rfl

/-! ## The proof data -/

/-- The proof data of the call on core `c`: the arrays as the region finds them; after the body at point `t` each input's
    buffer at its block and the result's at `k1_pay3` of the accumulator and the bias block (consulted only where
    k = 3: elsewhere the window is idle and not written back); the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (iblk1 V c 2 t) := by dsimp only [dat1]

/-! ## The body, case by case, on whole memrefs -/

/-- The zero offsets, as the kernel spells them. -/
theorem hz2 : (![0, 0] : Fin 2 → Nat) = fun _ => 0 := by funext a; fin_cases a <;> rfl

set_option maxHeartbeats 1000000 in
/-- A point with k = 0: the accumulator is reset, then takes the product of the two blocks; the bias and result buffers
    are not touched. -/
theorem run_first (c : Dev nD) (E : Set ℕ) (i : grid1.Coords) (hc0 : isFirst i) (hc1 : ¬ isLast i)
    (arg3 : Memref sig .tc .vmem S1024x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x1024 .f32) (w : Vec F S1024x1024 .bf16) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  subst hf3; subst hf4
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  rw [View.read_writes_eq_canon _ _ _ (fun y => ⟨_, List.Mem.head _, View.mem_set_unit_zero hz2 inb_S1024x1024_S1024x1024_0_0 y⟩),
    View.canon_cons_unit_zero hz2]
  sl_unfold_words
  simp only [View.readAt_eq_ld, View.ld_unit_zero (S := S1024x1024) hz2, View.readCov_unit_zero (S := S1024x1024) _ hz2]

set_option maxHeartbeats 1000000 in
/-- A point with k = 1 or 2: the accumulator, at `acc`, takes the product of the two blocks on top; the bias and result
    buffers are not touched. -/
theorem run_mid (c : Dev nD) (E : Set ℕ) (i : grid1.Coords) (hc0 : ¬ isFirst i) (hc1 : ¬ isLast i)
    (arg3 : Memref sig .tc .vmem S1024x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x1024 .f32) (w : Vec F S1024x1024 .bf16) (acc : Vec F S1024x1024 .f32) (K : PUnit → sProp 𝕄) :
    iprop(owns (c : Thread nD τ) arg3 fullShare x ∗ owns (c : Thread nD τ) arg4 fullShare w ∗ owns (c : Thread nD τ) arg7 fullShare acc
        ∗ (iprop(owns (c : Thread nD τ) arg3 fullShare x ∗ owns (c : Thread nD τ) arg4 fullShare w
            ∗ owns (c : Thread nD τ) arg7 fullShare (k1_pay2 x w acc)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  subst hf3; subst hf4; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  rw [View.read_writes_eq_canon _ _ _ (fun y => ⟨_, List.Mem.head _, View.mem_set_unit_zero hz2 inb_S1024x1024_S1024x1024_0_0 y⟩),
    View.canon_cons_unit_zero hz2]
  sl_unfold_words
  simp only [View.readAt_eq_ld, View.ld_unit_zero (S := S1024x1024) hz2, View.readCov_unit_zero (S := S1024x1024) _ hz2]

set_option maxHeartbeats 1000000 in
/-- A point with k = 3: the accumulator, at `acc`, takes the product of the two blocks on top, and the result buffer
    takes the new accumulator plus the bias row `b` on every row. -/
theorem run_last (c : Dev nD) (E : Set ℕ) (i : grid1.Coords) (hc0 : ¬ isFirst i) (hc1 : isLast i)
    (arg3 : Memref sig .tc .vmem S1024x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x1024 .f32) (w : Vec F S1024x1024 .bf16) (b : Vec F S1x1024 .f32) (acc : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare acc
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w acc) b)
            ∗ owns (c : Thread nD τ) arg7 fullShare (k1_pay2 x w acc)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.Mem.head _, View.mem_set_unit_zero hz2 inb_S1024x1024_S1024x1024_0_0 y⟩),
      View.canon_cons_unit_zero hz2]
    sl_unfold_words
    simp only [View.readAt_eq_ld, View.ld_unit_zero (S := S1024x1024) hz2, View.ld_unit_zero (S := S1x1024) hz2,
      View.readCov_unit_zero (S := S1024x1024) _ hz2]
  iexists _; isplitr
  swap; · iexact H7
  ipureintro
  sl_unfold_words
  rw [View.read_writes_eq_canon _ _ _ (fun y => ⟨_, List.Mem.head _, View.mem_set_unit_zero hz2 inb_S1024x1024_S1024x1024_0_0 y⟩),
    View.canon_cons_unit_zero hz2]
  simp only [View.readAt_eq_ld, View.ld_unit_zero (S := S1024x1024) hz2, View.readCov_unit_zero (S := S1024x1024) _ hz2]

/-! ## What the body finds in the inputs' buffers, and where the result window is idle -/

/-- Each input's current staging buffer holds its block at every point, whether or not the pipeline fetched it there
    (the bias block is fetched at the points with k = 0 only: its block index does not move with k). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Away from k = 3 the result window is idle, -/
theorem idle1_3 (t : Fin cfg1.N) (h : ¬ t.val % 4 = 3) : cfg1.idle 3 (cfg1.grid.coords t) = true := by
  show (!(k1_cond2 (grid1.coords t) == 1#1)) = true
  rw [Bool.not_eq_true', beq_eq_false_iff_ne]
  exact fun h' => h ((isLast_iff t).mp h')
/-- and is not written back; -/
theorem noFlush1_3 (t : Fin cfg1.N) (h : ¬ t.val % 4 = 3) : (cfg1.win 3).flush t = false :=
  Bool.eq_false_iff.mpr fun hf => h ((flush1_3 t).mp hf)
/-- at k = 3 it is live. -/
theorem live1_3 (t : Fin cfg1.N) (h : t.val % 4 = 3) : cfg1.idle 3 (cfg1.grid.coords t) = false := by
  show (!(k1_cond2 (grid1.coords t) == 1#1)) = false
  rw [Bool.not_eq_false', beq_iff_eq]
  exact (isLast_iff t).mpr h

/-- Before any position the invariant holds the scratch at some contents. -/
theorem PhiAcc_any (c : Dev nD) (n : ℕ) (h : n ≤ cfg1.N) :
    PhiAcc V c n h ⊢ iprop((∃ d, owns (c : Thread nD τ) scM fullShare d) ∗ restBut (F := F) c ∗ (∃ r, prngReg c r)) := by
  cases n with
  | zero =>
    rw [show PhiAcc V c 0 h = Pipeline.ΦA spec1 c from rfl, PhiA1_eq]
  | succ n =>
    rw [show PhiAcc V c (n + 1) h = iprop(owns (c : Thread nD τ) scM fullShare (accAt V c n h)
      ∗ restBut (F := F) c ∗ (∃ r, prngReg c r)) from rfl]
    iintro ⟨HS, Hr⟩
    isplitl [HS]; · iexists _; iexact HS
    iexact Hr

/-! ## The body obligation and the invariant's two ends -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the result's buffer as found where the window is idle, at the stored block where it is live. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1000000 in
/-- The body at any point: the inputs' memrefs hold their blocks; the closed forms of the two conditions say which of
    the three cases the point is in; the invariant hands over the scratch (at anything where k = 0, else at what the point
    before left) and takes it back at this point's accumulator; what the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(owns (c : Thread nD τ) scM fullShare (accAt V c t.val t.isLt)
      ∗ restBut (F := F) c ∗ (∃ r, prngReg c r)) from rfl,
    show (dat1 V c).Φ t.castSucc = PhiAcc V c t.val (Nat.le_of_lt t.isLt) from rfl,
    after1_0, after1_1, after1_2]
  by_cases h0 : t.val % 4 = 0
  · -- k = 0: the scratch is handed over at anything
    have h3 : ¬ t.val % 4 = 3 := by omega
    rw [Dat.leavesExact_idle (dat1 V c) 3 t (idle1_3 t h3) (noFlush1_3 t h3), accAt_first V c t h0]
    refine BIBase.Entails.trans (sep_mono_left (PhiAcc_any V c t.val (Nat.le_of_lt t.isLt))) ?_
    iintro ⟨⟨HS, Hr, Hg⟩, Ho, ⟨%d0, H0⟩, ⟨%d1, H1⟩, ⟨%d2, H2⟩, H3⟩
    iapply (run_first c Set.univ (grid1.coords t) ((isFirst_iff t).mpr h0) (fun h => h3 ((isLast_iff t).mp h))
      _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · have hz : t.val ≠ 0 := fun e => h0 (by rw [e])
    by_cases h3 : t.val % 4 = 3
    · -- k = 3: the scratch comes at what the point before left; the result block is stored
      rw [show (dat1 V c).leavesExact 3 t = owns (c : Thread nD τ) (st1_3 t) fullShare ((dat1 V c).after 3 t) from by
        unfold Dat.leavesExact; rw [live1_3 t h3], after1_3, accAt_next V c t h0, PhiAcc_pos V c t.val (Nat.le_of_lt t.isLt) hz]
      iintro ⟨⟨HS, Hr, Hg⟩, Ho, ⟨%d0, H0⟩, ⟨%d1, H1⟩, ⟨%d2, H2⟩, ⟨%d3, H3⟩⟩
      iapply (run_last c Set.univ (grid1.coords t) (fun h => h0 ((isFirst_iff t).mp h)) ((isLast_iff t).mpr h3)
        _ _ _ _ _ _ _ _ _ _ (iblk1 V c 0 t) (iblk1 V c 1 t) (iblk1 V c 2 t)
        (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- k = 1, 2: the scratch comes at what the point before left; the result buffer is handed back as found
      rw [Dat.leavesExact_idle (dat1 V c) 3 t (idle1_3 t h3) (noFlush1_3 t h3), accAt_next V c t h0,
        PhiAcc_pos V c t.val (Nat.le_of_lt t.isLt) hz]
      iintro ⟨⟨HS, Hr, Hg⟩, Ho, ⟨%d0, H0⟩, ⟨%d1, H1⟩, ⟨%d2, H2⟩, H3⟩
      iapply (run_mid c Set.univ (grid1.coords t) (fun h => h0 ((isFirst_iff t).mp h)) (fun h => h3 ((isLast_iff t).mp h))
        _ _ _ _ _ _ _ _ _ _ (iblk1 V c 0 t) (iblk1 V c 1 t)
        (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := by
  intro t
  rw [bigSep_W1, bigSep_W1]
  exact sound_body1 V c t

/-- What the region is entered with is the invariant before the first point. -/
theorem hin1 (c : Dev nD) : Pipeline.ΦA spec1 c ⊢ (dat1 (F := F) V c).Φ 0 := by
  rw [show (dat1 V c).Φ 0 = PhiAcc V c 0 (Nat.zero_le _) from rfl]
  exact Idealize.SL.BI.Entails.refl _

/-- After the last point the invariant gives the plain one back: the scratch's contents are forgotten. -/
theorem hout1 (c : Dev nD) : (dat1 (F := F) V c).Φ (Fin.last cfg1.N) ⊢ Pipeline.ΦA spec1 c := by
  rw [show (dat1 V c).Φ (Fin.last cfg1.N) = PhiAcc V c cfg1.N (Nat.le_refl _) from rfl]
  rw [PhiAcc_pos V c _ _ (by rw [show cfg1.N = 128 from N_1]; decide), PhiA1_eq]
  iintro ⟨HS, Hr, Hg⟩
  isplitl [HS]; · iexists _; iexact HS
  isplitl [Hr]; · iexact Hr
  iexact Hg

end Cert.KernelIdeal.Hand

end
-- ==== Proof.KI.Run.lean ====
/-
  The whole run of @main.  On each core @main is four items in order: two reshapes (the activations' rows flattened,
  the bias made a one-row matrix), the weight-fusing kernel region, the matmul kernel region, and a last reshape of the
  result back to three axes.  Between items the core's unscoped buffers hold:

      bnd0 : the launch memory
      bnd1 : bnd0 after the two reshapes                       (region 0's entry contents)
      bnd2 : bnd1 with region 0's arrays at what its write-backs leave   (region 1's entry contents)
      bnd3 : bnd2 with region 1's arrays at what its write-backs leave
      bnd4 : bnd3 after the last reshape

  Each region is entered from "every unscoped buffer at the boundary's contents, the generator register at some state,
  nothing owed" and left at the same with the next boundary's contents; its arrays are split out of the unscoped
  buffers at entry and put back at exit; the generator register (and, for the matmul region, the scratch inside the
  scoped rest) go into the region invariant and come back.  The launch theorem for a list of segments then gives: every
  weakly fair execution terminates, nothing faults, and the final memory holds every unscoped buffer at `bnd4`.  From
  that one run the frame (no item writes an argument) and the result's value (`bnd4` at the result buffer) are read.
-/
import proofs.«117131_j27023934227119_1_alg».proof.Proof.KI.Fuse
import proofs.«117131_j27023934227119_1_alg».proof.Proof.KI.Acc
import proofs.«117131_j27023934227119_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev bnd0 : Dev nD → Valuation τ sig (Elt F) := fun c b => (s₀ m ρ).mem ((c : Dev nD), b)
/-- After the two reshapes. -/
abbrev bnd1 : Dev nD → Valuation τ sig (Elt F) := fun c => StableHlo.after hostOps0 (bnd0 m ρ c)
/-- The same read at the TensorCore's references: what the weight-fusing region's proof data take. -/
abbrev ent0 : (c : Dev nD) → (b : Ref sig .tc) → Buf (Elt F) ((c : Thread nD τ).loc b) := fun c b => bnd1 m ρ c b
/-- At the weight-fusing region's exit: its arrays at what the pipeline leaves, every other buffer as entered. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
/-- The same read at the TensorCore's references: what the matmul region's proof data take. -/
abbrev ent1 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ent1 m ρ c (Pipeline.arrRef spec0 w) :=
  (bnd2_arr m ρ c w).symm
theorem hrest0 (c : Dev nD) : ∀ b, b ∉ Finset.univ.image (Pipeline.arrRef spec0) → ent1 m ρ c b = ent0 m ρ c b :=
  fun b hb => bnd2_of_ne m ρ c b fun w e => hb (Finset.mem_image.mpr ⟨w, Finset.mem_univ _, e⟩)

/-- At the matmul region's exit. -/
def bnd3 (c : Dev nD) : Valuation τ sig (Elt F) :=
  Pipeline.withArrays spec1 c (bnd2 m ρ c) fun w => (dat1 (ent1 m ρ) c).arrAt w cfg1.N
theorem bnd3_arr (c : Dev nD) (w : Fin cfg1.W) :
    bnd3 m ρ c (Proc.devRef .tc (Pipeline.arrRef spec1 w)) = (dat1 (ent1 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
/-- The same read at the TensorCore's references. -/
abbrev ext1 : (c : Dev nD) → (b : Ref sig .tc) → Buf (Elt F) ((c : Thread nD τ).loc b) := fun c b => bnd3 m ρ c b
theorem hF1 (c : Dev nD) (w : Fin cfg1.W) : (dat1 (ent1 m ρ) c).arrAt w cfg1.N = ext1 m ρ c (Pipeline.arrRef spec1 w) :=
  (bnd3_arr m ρ c w).symm
theorem hrest1 (c : Dev nD) : ∀ b, b ∉ Finset.univ.image (Pipeline.arrRef spec1) → ext1 m ρ c b = ent1 m ρ c b :=
  fun b hb => bnd3_of_ne m ρ c b fun w e => hb (Finset.mem_image.mpr ⟨w, Finset.mem_univ _, e⟩)

/-- After the last reshape. -/
abbrev bnd4 : Dev nD → Valuation τ sig (Elt F) := fun c => StableHlo.after hostOps2 (bnd3 m ρ c)

/-! ## The proof data family and the thread state -/

/-- Both pipelines' proof data, each at its region's entry contents. -/
def pdat : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every item: the generator register at some state, and the core owing nothing. -/
abbrev Rd (c : Dev nD) : sProp 𝕄 := iprop((∃ r, prngReg c r) ∗ ∃ W, owes (c : Thread nD τ) (0 : CellTallies nD τ sig Unit) W)
/-- A stretch of host operations as a segment, from the contents `W`, `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `bnd4`, the generator register. -/
abbrev Tend (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- The weight-fusing region: entered from every unscoped buffer at `bnd1`, left at `bnd2`. -/
def reg0 : Pipeline.RegionSeg (pcfgs (F := F)) adm (pdat m ρ) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ Lv lvl 0 fun _ _ => rfl
  pre c := iprop(StableHlo.held (c : Thread nD τ) (Pipeline.ucRefs τ sig) (bnd1 m ρ c) ∗ Rd c)
  post c := iprop(StableHlo.held (c : Thread nD τ) (Pipeline.ucRefs τ sig) (bnd2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (ent0 m ρ c) (ent1 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `bnd2`, left at `bnd3`.  What it is entered with (the
    generator register, the scoped rest) is the invariant before the first point (`hin1`); after the last point the
    invariant forgets the accumulator and gives the same back (`hout1`). -/
def reg1 : Pipeline.RegionSeg (pcfgs (F := F)) adm (pdat m ρ) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ Lv lvl 1 fun _ _ => rfl
  pre c := iprop(StableHlo.held (c : Thread nD τ) (Pipeline.ucRefs τ sig) (bnd2 m ρ c) ∗ Rd c)
  post c := iprop(StableHlo.held (c : Thread nD τ) (Pipeline.ucRefs τ sig) (bnd3 m ρ c) ∗ Rd c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (ent1 m ρ) c)
    unfold Pipeline.ΦA
    iintro ⟨Hp, -, Hr⟩
    isplitl [Hr]; · iexact Hr
    iexact Hp
  hout c := by
    rw [Pipeline.ownSems0_none]
    refine (hout1 (ent1 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (ent1 m ρ c) (ext1 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (pdat m ρ) () defs₀ 𝒱₀ Lv lvl) :=
  [ .host (hseg hostOps0 hostOps0_sub hostOps0_fresh (bnd0 m ρ)),
    .region (reg0 m ρ),
    .region (reg1 m ρ),
    .host (hseg hostOps2 hostOps2_sub hostOps2_fresh (bnd3 m ρ)) ]
/-- @main IS the run of the items. -/
theorem main_items (c : Dev nD) : main (F := F) c = Pipeline.Seg.run (items m ρ) := (main_chain c).trans (by chain_rfl)

set_option backward.isDefEq.respectTransparency.types false in
/-- THE RUN: from any memory with zero counters every weakly fair execution of @main terminates, nothing faulting, and
    the final memory holds every unscoped buffer of every core at `bnd4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdat m ρ) () cellOf_inj emb₁ defs₀ 𝒱₀ Lv lvl m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ Rd c)) (Tₙ := Tend m ρ)
    (hch := ⟨fun _ => .rfl, fun _ => .rfl, fun _ => .rfl, fun _ => .rfl, fun c => by
      show iprop(StableHlo.held (c : Thread nD τ) (Pipeline.ucRefs τ sig) (bnd4 m ρ c) ∗ Rd c)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lv lvl fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h c => h c)

end Cert.KernelIdeal.Hand

end
-- ==== Proof.KI.Frame.lean ====
/-
  The frame, read off the run.  No item of @main writes an argument array: the three reshapes write only their own
  results, the weight-fusing region reads W, B and A through input windows (an input window's array is never written
  back) and bypasses x and bias, the matmul region touches no argument at all.  So the final contents of each argument,
  walked back boundary by boundary, are its launch contents.
-/
import proofs.«117131_j27023934227119_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first two reshapes write only their results. -/
theorem bnd1_of (c : Dev nD) (r : Ref sig .tc) (h : r ∉ hostOps0_W) :
    bnd1 m ρ c (Proc.devRef .tc r) = bnd0 m ρ c (Proc.devRef .tc r) :=
  StableHlo.after_of_writes_sub hostOps0 _ hostOps0_writes h
/-- The last reshape writes only its result. -/
theorem bnd4_of (c : Dev nD) (r : Ref sig .tc) (h : r ∉ hostOps2_W) :
    bnd4 m ρ c (Proc.devRef .tc r) = bnd3 m ρ c (Proc.devRef .tc r) :=
  StableHlo.after_of_writes_sub hostOps2 _ hostOps2_writes h
/-- An input window's array leaves the weight-fusing region as it entered. -/
theorem bnd2_in (c : Dev nD) (w : Fin cfg0.W) (hw : (cfg0.win w).isOut = false) :
    bnd2 m ρ c (Proc.devRef .tc (Pipeline.arrRef spec0 w)) = bnd1 m ρ c (Proc.devRef .tc (Pipeline.arrRef spec0 w)) :=
  (bnd2_arr m ρ c w).trans (((dat0 (ent0 m ρ) c).arrAt_in w hw _).trans (A_eq0 (ent0 m ρ) c w))
/-- An input window's array leaves the matmul region as it entered. -/
theorem bnd3_in (c : Dev nD) (w : Fin cfg1.W) (hw : (cfg1.win w).isOut = false) :
    bnd3 m ρ c (Proc.devRef .tc (Pipeline.arrRef spec1 w)) = bnd2 m ρ c (Proc.devRef .tc (Pipeline.arrRef spec1 w)) :=
  (bnd3_arr m ρ c w).trans (((dat1 (ent1 m ρ) c).arrAt_in w hw _).trans (A_eq1 (ent1 m ρ) c w))

theorem bnd4_main_arg0 (c : Dev nD) : bnd4 m ρ c (Proc.devRef .tc main_arg0) = m ((c : Thread nD τ).loc main_arg0) :=
  (bnd4_of m ρ c main_arg0 (by decide)).trans <| (bnd3_of_ne m ρ c main_arg0 (by decide)).trans <|
    (bnd2_of_ne m ρ c main_arg0 (by decide)).trans <| (bnd1_of m ρ c main_arg0 (by decide)).trans rfl
theorem bnd4_main_arg1 (c : Dev nD) : bnd4 m ρ c (Proc.devRef .tc main_arg1) = m ((c : Thread nD τ).loc main_arg1) :=
  (bnd4_of m ρ c main_arg1 (by decide)).trans <| (bnd3_of_ne m ρ c main_arg1 (by decide)).trans <|
    (bnd2_in m ρ c 0 rfl).trans <| (bnd1_of m ρ c main_arg1 (by decide)).trans rfl
theorem bnd4_main_arg2 (c : Dev nD) : bnd4 m ρ c (Proc.devRef .tc main_arg2) = m ((c : Thread nD τ).loc main_arg2) :=
  (bnd4_of m ρ c main_arg2 (by decide)).trans <| (bnd3_of_ne m ρ c main_arg2 (by decide)).trans <|
    (bnd2_of_ne m ρ c main_arg2 (by decide)).trans <| (bnd1_of m ρ c main_arg2 (by decide)).trans rfl
theorem bnd4_main_arg3 (c : Dev nD) : bnd4 m ρ c (Proc.devRef .tc main_arg3) = m ((c : Thread nD τ).loc main_arg3) :=
  (bnd4_of m ρ c main_arg3 (by decide)).trans <| (bnd3_of_ne m ρ c main_arg3 (by decide)).trans <|
    (bnd2_in m ρ c 2 rfl).trans <| (bnd1_of m ρ c main_arg3 (by decide)).trans rfl
theorem bnd4_main_arg4 (c : Dev nD) : bnd4 m ρ c (Proc.devRef .tc main_arg4) = m ((c : Thread nD τ).loc main_arg4) :=
  (bnd4_of m ρ c main_arg4 (by decide)).trans <| (bnd3_of_ne m ρ c main_arg4 (by decide)).trans <|
    (bnd2_in m ρ c 1 rfl).trans <| (bnd1_of m ρ c main_arg4 (by decide)).trans rfl

/-- What the final memory holds at the arguments: their launch contents. -/
theorem args_kept {r : PUnit × MemSt nD τ sig (Elt F)}
    (h : ∀ c : Dev nD, ∀ b ∈ Pipeline.ucRefs τ sig, r.2.mem (((c : Thread nD τ)).1, b) = bnd4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c _ (mem_uc main_arg0 (by decide))).trans (bnd4_main_arg0 m ρ c),
    (h c _ (mem_uc main_arg1 (by decide))).trans (bnd4_main_arg1 m ρ c),
    (h c _ (mem_uc main_arg2 (by decide))).trans (bnd4_main_arg2 m ρ c),
    (h c _ (mem_uc main_arg3 (by decide))).trans (bnd4_main_arg3 m ρ c),
    (h c _ (mem_uc main_arg4 (by decide))).trans (bnd4_main_arg4 m ρ c)⟩

/-- THE FRAME, at any float instance: @main runs to the end, nothing faults, the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m ρ h c) (run_main m ρ)

end Cert.KernelIdeal.Hand

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.Spec.lean ====
/-
  The mathematics of the certificate, with no program in sight: a low-rank-adapted linear layer, computed two ways.

  Inputs (extended reals at the ideal reading): activations x[b, s, i] (4 × 2048 × 4096), base weight W[o, i]
  (4096 × 4096), bias[o], low-rank factors A[r, i] (16 × 4096) and B[o, r] (4096 × 16); c = 1/16 (the float literal
  0x3D800000, an exact dyadic).

  * The fused form (what the kernels compute).  First the fused weight

        Wf[o, i] = W[o, i] + (∑ r, B[o, r] · A[r, i]) · c ,

    then, with the rows flattened (m = 2048 b + s), the contraction axis cut into four blocks of 1024 and summed
    block after block in a running accumulator,

        out[m, o] = (((P₀ + P₁) + P₂) + P₃) + bias[o] ,   P_k = ∑ q < 1024, x[m, 1024 k + q] · Wf[o, 1024 k + q] .

  * The low-rank form (what the reference computes):

        ref[b, s, o] = (∑ i, x[b, s, i] · W[o, i] + bias[o]) + (∑ r, (∑ i, x[b, s, i] · A[r, i]) · B[o, r]) · c .

  Over the REALS the two agree: cutting a sum into blocks, distributing x over the two summands of Wf, and exchanging
  the sums over i and r.  Distributivity fails on the extended reals at the infinities, so the law is stated for inputs
  every entry of which is (the coercion of) a real number — which is what the certificate's precondition provides.
-/
import Idealize.ShloMosaic.PureOps.Ideal
import Idealize.ShloMosaic.PureOps.Ideal.Laws
import Idealize.ShloMosaic.Lib.ValueIdx
import proofs.«117131_j27023934227119_1_alg».proof.Proof.LibERealArith
import Mathlib.Algebra.BigOperators.Fin
import Mathlib.Algebra.BigOperators.Ring.Finset
import Mathlib.Tactic.Ring

noncomputable section

namespace Cert.Spec

open Idealize.ShloMosaic Idealize.ShloMosaic.ValueIdx
open scoped BigOperators

/-! ## Shapes -/

abbrev Sx : Shape := ⟨3, ![4, 2048, 4096]⟩
abbrev Sw : Shape := ⟨2, ![4096, 4096]⟩
abbrev Sbias : Shape := ⟨1, ![4096]⟩
abbrev Sa : Shape := ⟨2, ![16, 4096]⟩
abbrev Sb : Shape := ⟨2, ![4096, 16]⟩
abbrev Sx2 : Shape := ⟨2, ![8192, 4096]⟩
abbrev Sbias2 : Shape := ⟨2, ![1, 4096]⟩

/-- The scale 1/16, as the float literal both programs spell. -/
def sixteenth : EReal := Ideal.ofBits .f32 0x3D800000#32

/-! ## The fused form -/

/-- The fused weight at row `o`, column `i`. -/
def fusedWeightAt (W : Sw.Idx → EReal) (B : Sb.Idx → EReal) (A : Sa.Idx → EReal) (o i : Fin 4096) : EReal :=
  W (ix2 o i) + (∑ r : Fin 16, B (ix2 o r) * A (ix2 r i)) * sixteenth

/-- The fused weight as an array. -/
def fusedWeight (W : Sw.Idx → EReal) (B : Sb.Idx → EReal) (A : Sa.Idx → EReal) : Sw.Idx → EReal :=
  fun j => fusedWeightAt W B A ⟨(j 0).val, idx2_lt0 j⟩ ⟨(j 1).val, idx2_lt1 j⟩

/-- Contraction block `k` of row `m` of the flattened activations against row `o` of a weight. -/
def blockSum (X : Sx2.Idx → EReal) (Wf : Sw.Idx → EReal) (k : Fin 4) (m : Fin 8192) (o : Fin 4096) : EReal :=
  ∑ q : Fin 1024, X (ix2 m ⟨1024 * k.val + q.val, by omega⟩) * Wf (ix2 o ⟨1024 * k.val + q.val, by omega⟩)

/-- The blocked matmul with bias at row `m`, column `o`: the four blocks added in order, then the bias. -/
def matmulBiasAt (X : Sx2.Idx → EReal) (Wf : Sw.Idx → EReal) (b2 : Sbias2.Idx → EReal) (m : Fin 8192) (o : Fin 4096) : EReal :=
  (((blockSum X Wf 0 m o + blockSum X Wf 1 m o) + blockSum X Wf 2 m o) + blockSum X Wf 3 m o) + b2 (ix2 (0 : Fin 1) o)

/-- The same as an array. -/
def matmulBias (X : Sx2.Idx → EReal) (Wf : Sw.Idx → EReal) (b2 : Sbias2.Idx → EReal) : Sx2.Idx → EReal :=
  fun j => matmulBiasAt X Wf b2 ⟨(j 0).val, idx2_lt0 j⟩ ⟨(j 1).val, idx2_lt1 j⟩

/-- The activations with the two leading axes flattened, row-major: row `m` is (m / 2048, m % 2048). -/
def flattenRows (x : Sx.Idx → EReal) : Sx2.Idx → EReal :=
  fun j => x (ix3 (⟨(j 0).val / 2048, by have := idx2_lt0 j; omega⟩ : Fin 4) (⟨(j 0).val % 2048, Nat.mod_lt _ (by decide)⟩ : Fin 2048)
    (⟨(j 1).val, idx2_lt1 j⟩ : Fin 4096))

/-- The bias as a one-row matrix. -/
def biasRow (bias : Sbias.Idx → EReal) : Sbias2.Idx → EReal :=
  fun j => bias (ix1 (⟨(j 1).val, idx2_lt1 j⟩ : Fin 4096))

/-- What the kernels compute, as ONE function of the five inputs, indexed like the result: entry (b, s, o) is row
    2048 b + s, column o of the blocked matmul of the flattened activations against the fused weight, plus bias. -/
def kernelOut (x : Sx.Idx → EReal) (W : Sw.Idx → EReal) (bias : Sbias.Idx → EReal) (A : Sa.Idx → EReal) (B : Sb.Idx → EReal) :
    Sx.Idx → EReal :=
  fun i => matmulBiasAt (flattenRows x) (fusedWeight W B A) (biasRow bias)
    ⟨2048 * (i 0).val + (i 1).val, by have h0 : (i 0).val < 4 := (i 0).isLt; have h1 : (i 1).val < 2048 := (i 1).isLt; omega⟩
    ⟨(i 2).val, (i 2).isLt⟩

/-! ## The low-rank form -/

/-- What the reference computes, indexed like the result. -/
def referenceOut (x : Sx.Idx → EReal) (W : Sw.Idx → EReal) (bias : Sbias.Idx → EReal) (A : Sa.Idx → EReal) (B : Sb.Idx → EReal) :
    Sx.Idx → EReal :=
  fun i =>
    ((∑ k : Fin 4096, x (ix3 (⟨(i 0).val, (i 0).isLt⟩ : Fin 4) (⟨(i 1).val, (i 1).isLt⟩ : Fin 2048) k) * W (ix2 (⟨(i 2).val, (i 2).isLt⟩ : Fin 4096) k))
        + bias (ix1 (⟨(i 2).val, (i 2).isLt⟩ : Fin 4096)))
      + (∑ r : Fin 16, (∑ k : Fin 4096, x (ix3 (⟨(i 0).val, (i 0).isLt⟩ : Fin 4) (⟨(i 1).val, (i 1).isLt⟩ : Fin 2048) k) * A (ix2 r k))
            * B (ix2 (⟨(i 2).val, (i 2).isLt⟩ : Fin 4096) r)) * sixteenth

/-! ## The law -/

section Law

open Cert.Lib.ERealArith

/-- The scale is the real number 1/16: sign 0, exponent field 123, mantissa 0, so 2 ^ (123 - 127). -/
private theorem sixteenth_eq : sixteenth = ((1 / 16 : ℝ) : EReal) := by
  unfold sixteenth
  simp [Ideal.ofBits, Ideal.ieee, -EReal.coe_mul]; norm_num

/-- A sum over 4096 indices, cut into four consecutive blocks of 1024: the index 1024 k + q runs through
    all of them exactly once as (k, q) runs through 4 × 1024. -/
private theorem sum_blocks (f : Fin 4096 → ℝ) :
    ∑ i : Fin 4096, f i = ∑ k : Fin 4, ∑ q : Fin 1024, f ⟨1024 * k.val + q.val, by omega⟩ := by
  rw [← Finset.sum_product']
  refine (Fintype.sum_equiv (finProdFinEquiv (m := 4) (n := 1024)) _ _ ?_).symm
  rintro ⟨k, q⟩
  refine congrArg f (Fin.ext ?_)
  simp only [finProdFinEquiv_apply_val]
  omega

/-- The identity over ℝ: x distributes over the two summands of the fused weight, and in the second the sums over
    the contraction index and over the rank index are exchanged. -/
private theorem fused_eq_lowrank (X Wr : Fin 4096 → ℝ) (Ar : Fin 16 → Fin 4096 → ℝ) (Br : Fin 16 → ℝ) (c : ℝ) :
    ∑ i : Fin 4096, X i * (Wr i + (∑ r : Fin 16, Br r * Ar r i) * c)
      = ∑ i : Fin 4096, X i * Wr i + (∑ r : Fin 16, (∑ i : Fin 4096, X i * Ar r i) * Br r) * c := by
  have h1 : ∀ i : Fin 4096, X i * (Wr i + (∑ r : Fin 16, Br r * Ar r i) * c)
      = X i * Wr i + ∑ r : Fin 16, X i * Ar r i * Br r * c := by
    intro i
    rw [mul_add, Finset.sum_mul, Finset.mul_sum]
    congr 1
    refine Finset.sum_congr rfl fun r _ => ?_
    ring
  rw [Finset.sum_congr rfl fun i _ => h1 i, Finset.sum_add_distrib, Finset.sum_comm, Finset.sum_mul]
  congr 1
  refine Finset.sum_congr rfl fun r _ => ?_
  rw [Finset.sum_mul, Finset.sum_mul]

/-- Row 2048 b + s of the flattened activations is row (b, s): the quotient by 2048 is b and the remainder is s. -/
private theorem flattenRows_at (x : Sx.Idx → EReal) (b : Fin 4) (s : Fin 2048) (k : Fin 4096)
    (h : 2048 * b.val + s.val < 8192) :
    flattenRows x (ix2 (⟨2048 * b.val + s.val, h⟩ : Fin 8192) k) = x (ix3 b s k) := by
  unfold flattenRows
  congr 1
  funext d
  match d with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- The fused weight of real-valued W, B, A is real-valued, with the real formula. -/
private theorem fusedWeight_coe (Wr : Sw.Idx → ℝ) (Br : Sb.Idx → ℝ) (Ar : Sa.Idx → ℝ) (o k : Fin 4096) :
    fusedWeight (fun j => ((Wr j : ℝ) : EReal)) (fun j => ((Br j : ℝ) : EReal)) (fun j => ((Ar j : ℝ) : EReal)) (ix2 o k)
      = ((Wr (ix2 o k) + (∑ r : Fin 16, Br (ix2 o r) * Ar (ix2 r k)) * (1 / 16) : ℝ) : EReal) := by
  show ((Wr (ix2 o k) : ℝ) : EReal) + (∑ r : Fin 16, ((Br (ix2 o r) : ℝ) : EReal) * ((Ar (ix2 r k) : ℝ) : EReal)) * sixteenth = _
  rw [sixteenth_eq]
  simp only [mul_coe, univ_sum_coe, add_coe]

/-- The law at one entry (b, s, o), for real-valued inputs. Both sides are brought under one coercion; over ℝ the four
    blocks are glued back into the whole contraction and the distributive identity finishes. -/
private theorem entry_eq (xr : Sx.Idx → ℝ) (Wr : Sw.Idx → ℝ) (br : Sbias.Idx → ℝ) (Ar : Sa.Idx → ℝ) (Br : Sb.Idx → ℝ)
    (b : Fin 4) (s : Fin 2048) (o : Fin 4096) (h : 2048 * b.val + s.val < 8192) :
    matmulBiasAt (flattenRows fun j => ((xr j : ℝ) : EReal))
        (fusedWeight (fun j => ((Wr j : ℝ) : EReal)) (fun j => ((Br j : ℝ) : EReal)) (fun j => ((Ar j : ℝ) : EReal)))
        (biasRow fun j => ((br j : ℝ) : EReal)) ⟨2048 * b.val + s.val, h⟩ o
      = ((∑ k : Fin 4096, ((xr (ix3 b s k) : ℝ) : EReal) * ((Wr (ix2 o k) : ℝ) : EReal)) + ((br (ix1 o) : ℝ) : EReal))
        + (∑ r : Fin 16, (∑ k : Fin 4096, ((xr (ix3 b s k) : ℝ) : EReal) * ((Ar (ix2 r k) : ℝ) : EReal))
              * ((Br (ix2 o r) : ℝ) : EReal)) * sixteenth := by
  have hblock : ∀ kk : Fin 4,
      blockSum (flattenRows fun j => ((xr j : ℝ) : EReal))
          (fusedWeight (fun j => ((Wr j : ℝ) : EReal)) (fun j => ((Br j : ℝ) : EReal)) (fun j => ((Ar j : ℝ) : EReal)))
          kk ⟨2048 * b.val + s.val, h⟩ o
        = ((∑ q : Fin 1024,
              (fun k : Fin 4096 => xr (ix3 b s k) * (Wr (ix2 o k) + (∑ r : Fin 16, Br (ix2 o r) * Ar (ix2 r k)) * (1 / 16)))
                ⟨1024 * kk.val + q.val, by omega⟩ : ℝ) : EReal) := by
    intro kk
    unfold blockSum
    refine sum_eq_coe _ _ _ fun q _ => ?_
    rw [flattenRows_at, fusedWeight_coe, mul_coe]
  have hbias : biasRow (fun j => ((br j : ℝ) : EReal)) (ix2 (0 : Fin 1) o) = ((br (ix1 o) : ℝ) : EReal) := rfl
  unfold matmulBiasAt
  rw [hblock 0, hblock 1, hblock 2, hblock 3, hbias, sixteenth_eq]
  simp only [mul_coe, univ_sum_coe, add_coe]
  rw [EReal.coe_eq_coe_iff]
  have hcut := sum_blocks
    (fun k : Fin 4096 => xr (ix3 b s k) * (Wr (ix2 o k) + (∑ r : Fin 16, Br (ix2 o r) * Ar (ix2 r k)) * (1 / 16)))
  rw [Fin.sum_univ_four] at hcut
  rw [← hcut, fused_eq_lowrank (fun k => xr (ix3 b s k)) (fun k => Wr (ix2 o k)) (fun r k => Ar (ix2 r k)) (fun r => Br (ix2 o r))]
  ring

end Law

/-- On real-valued inputs the fused form and the low-rank form are the same function. -/
theorem kernelOut_eq_referenceOut (x : Sx.Idx → EReal) (W : Sw.Idx → EReal) (bias : Sbias.Idx → EReal) (A : Sa.Idx → EReal) (B : Sb.Idx → EReal)
    (hx : ∀ i, ∃ r : ℝ, x i = (r : EReal)) (hW : ∀ i, ∃ r : ℝ, W i = (r : EReal)) (hbias : ∀ i, ∃ r : ℝ, bias i = (r : EReal))
    (hA : ∀ i, ∃ r : ℝ, A i = (r : EReal)) (hB : ∀ i, ∃ r : ℝ, B i = (r : EReal)) :
    kernelOut x W bias A B = referenceOut x W bias A B := by
  choose xr hxr using hx
  choose Wr hWr using hW
  choose br hbr using hbias
  choose Ar hAr using hA
  choose Br hBr using hB
  obtain rfl : x = fun j => ((xr j : ℝ) : EReal) := funext hxr
  obtain rfl : W = fun j => ((Wr j : ℝ) : EReal) := funext hWr
  obtain rfl : bias = fun j => ((br j : ℝ) : EReal) := funext hbr
  obtain rfl : A = fun j => ((Ar j : ℝ) : EReal) := funext hAr
  obtain rfl : B = fun j => ((Br j : ℝ) : EReal) := funext hBr
  funext i
  exact entry_eq xr Wr br Ar Br (i 0) (i 1) (i 2) _

end Cert.Spec

end
-- ==== Proof.KI.FuseValue.lean ====
/-
  The fused weight, as an array.  In the first kernel region point t of the 16 writes back rows [256 t, 256 t + 256)
  of the fused weight, computed from the same rows of W and of B and from all of A:

      block_t[p, i] = W[256 t + p, i] + (∑ r, B[256 t + p, r] · A[r, i]) · (1/16)

  (at the ideal reading the changes of float format are the identity and the matrix product into a zero accumulator is
  the plain sum).  The 16 row blocks tile the 4096 rows, so after the region the whole array is the specification's
  `fusedWeight` of the three arrays as the region found them.
-/
import proofs.«117131_j27023934227119_1_alg».proof.Proof.KI.Fuse
import proofs.«117131_j27023934227119_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The matrix product of a row block of B with A, entry by entry

The product contracts axis 1 of the left operand (256 × 16) with axis 0 of the right (16 × 4096): at output entry
(p, q) and contraction index r the left operand is read at (p, r) and the right at (r, q). -/

private theorem lhs_fuse_0 (i : S256x4096.Idx) (k : dot_S256x16_S16x4096_S256x4096_1_0_0_1_n_n.contr.Idx) :
    (dot_S256x16_S16x4096_S256x4096_1_0_0_1_n_n.lhsIdx i k 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
private theorem lhs_fuse_1 (i : S256x4096.Idx) (k : dot_S256x16_S16x4096_S256x4096_1_0_0_1_n_n.contr.Idx) :
    (dot_S256x16_S16x4096_S256x4096_1_0_0_1_n_n.lhsIdx i k 1).val = (k ⟨0, by decide⟩).val :=
  dot_S256x16_S16x4096_S256x4096_1_0_0_1_n_n.lhsIdx_val_of_single rfl i k
private theorem rhs_fuse_0 (i : S256x4096.Idx) (k : dot_S256x16_S16x4096_S256x4096_1_0_0_1_n_n.contr.Idx) :
    (dot_S256x16_S16x4096_S256x4096_1_0_0_1_n_n.rhsIdx i k 0).val = (k ⟨0, by decide⟩).val :=
  dot_S256x16_S16x4096_S256x4096_1_0_0_1_n_n.rhsIdx_val_of_single rfl i k
private theorem rhs_fuse_1 (i : S256x4096.Idx) (k : dot_S256x16_S16x4096_S256x4096_1_0_0_1_n_n.contr.Idx) :
    (dot_S256x16_S16x4096_S256x4096_1_0_0_1_n_n.rhsIdx i k 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- Into the zero accumulator the product's entry (p, q) is the sum over the 16 contraction indices. -/
private theorem matmul_fuse_apply (x : FVec Ideal S256x16 .bf16) (y : FVec Ideal S16x4096 .bf16) (p : Fin 256) (q : Fin 4096) :
    matmul dot_S256x16_S16x4096_S256x4096_1_0_0_1_n_n none x y (constant S256x4096 .f32 0x00000000#32) (ix2 p q)
      = ∑ r : Fin 16, x (ix2 p r) * y (ix2 r q) := by
  refine (Ideal.matmul_constant_zero_apply dot_S256x16_S16x4096_S256x4096_1_0_0_1_n_n none x y (ix2 p q)).trans ?_
  rw [← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ix2 p q) ((ValueIdx.contrEquiv1 dot_S256x16_S16x4096_S256x4096_1_0_0_1_n_n 16 rfl rfl).symm k) = ix2 p k := funext fun a => Fin.ext (by
    match a with
    | ⟨0, _⟩ => exact lhs_fuse_0 _ _
    | ⟨1, _⟩ => exact (lhs_fuse_1 _ _).trans hk)
  have er : dot_S256x16_S16x4096_S256x4096_1_0_0_1_n_n.rhsIdx (ix2 p q) ((ValueIdx.contrEquiv1 dot_S256x16_S16x4096_S256x4096_1_0_0_1_n_n 16 rfl rfl).symm k) = ix2 k q := funext fun a => Fin.ext (by
    match a with
    | ⟨0, _⟩ => exact (rhs_fuse_0 _ _).trans hk
    | ⟨1, _⟩ => exact rhs_fuse_1 _ _)
  rw [el, er]

/-! ## The body's result at an entry -/

/-- Entry (p, q) of what the body stores, from a block `w` of W, a block `b` of B and the factor `a`: the changes of
    float format read through, the broadcast scale is the specification's 1/16. -/
private theorem pay_apply (b : Vec Ideal S256x16 .f32) (a : Vec Ideal S16x4096 .f32) (w : Vec Ideal S256x4096 .f32)
    (p : Fin 256) (q : Fin 4096) :
    k0_pay1 b a w (ix2 p q) = w (ix2 p q) + (∑ r : Fin 16, b (ix2 p r) * a (ix2 r q)) * Cert.Spec.sixteenth := by
  unfold k0_pay1
  show w (ix2 p q) + (matmul dot_S256x16_S16x4096_S256x4096_1_0_0_1_n_n none (truncf .bf16 b bitsLt_bf16_f32 : FVec Ideal S256x16 .bf16) (truncf .bf16 a bitsLt_bf16_f32 : FVec Ideal S16x4096 .bf16) (constant S256x4096 .f32 0x00000000#32) : FVec Ideal S256x4096 .f32) (ix2 p q) * Cert.Spec.sixteenth = _
  refine congrArg (fun z => w (ix2 p q) + z * Cert.Spec.sixteenth) ?_
  exact matmul_fuse_apply _ _ p q

/-- The same against three arrays the blocks are read from: when the blocks' entries are the arrays' entries of row
    `o`, the body's entry is the specification's fused weight at (o, q). -/
private theorem pay_block (b : Vec Ideal S256x16 .f32) (a : Vec Ideal S16x4096 .f32) (w : Vec Ideal S256x4096 .f32)
    (W : Cert.Spec.Sw.Idx → EReal) (B : Cert.Spec.Sb.Idx → EReal) (A : Cert.Spec.Sa.Idx → EReal)
    (o : Fin 4096) (p : Fin 256) (q : Fin 4096)
    (hw : w (ix2 p q) = W (ix2 o q)) (hb : ∀ r : Fin 16, b (ix2 p r) = B (ix2 o r)) (ha : ∀ r : Fin 16, a (ix2 r q) = A (ix2 r q)) :
    k0_pay1 b a w (ix2 p q) = Cert.Spec.fusedWeightAt W B A o q := by
  refine (pay_apply b a w p q).trans ?_
  unfold Cert.Spec.fusedWeightAt
  rw [hw, Finset.sum_congr rfl fun r _ => by rw [hb r, ha r]]

/-! ## The blocks, read off the arrays -/

/-- The block index maps over the grid: at point t the blocks of W, of B and of the result are block row t, the
    factor A is its one block. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block row t is a row of the array. -/
private theorem row_lt (t : Fin cfg0.N) (p : Fin 256) : 256 * t.val + p.val < 4096 := by
  have h1 : t.val < cfg0.N := t.isLt
  have hN : cfg0.N = 16 := N_0
  have h2 : p.val < 256 := p.isLt
  omega

/-- The block of W at point t: rows [256 t, 256 t + 256), all columns. -/
private theorem blkW (c : Dev nD) (t : Fin cfg0.N) (p : Fin 256) (q : Fin 4096) :
    iblk0 (F := Ideal) V c 0 t (ix2 p q) = V c main_arg1 (ix2 (⟨256 * t.val + p.val, row_lt t p⟩ : Fin 4096) q) := by
  obtain ⟨e0, e1, -⟩ := idx_facts t
  show V c main_arg1 (((cfg0.win 0).blk t).view.emb (ix2 p q)) = V c main_arg1 (ix2 (⟨256 * t.val + p.val, row_lt t p⟩ : Fin 4096) q)
  refine congrArg (V c main_arg1) (funext fun a => Fin.ext ?_)
  match a with
  | ⟨0, _⟩ => show win0_0.index t (0 : Fin 2) * 256 + 1 * p.val = 256 * t.val + p.val; omega
  | ⟨1, _⟩ => show win0_0.index t (1 : Fin 2) * 4096 + 1 * q.val = q.val; omega

/-- The block of B at point t: the same rows, all 16 columns. -/
private theorem blkB (c : Dev nD) (t : Fin cfg0.N) (p : Fin 256) (r : Fin 16) :
    iblk0 (F := Ideal) V c 1 t (ix2 p r) = V c main_arg4 (ix2 (⟨256 * t.val + p.val, row_lt t p⟩ : Fin 4096) r) := by
  obtain ⟨-, -, e2, e3, -⟩ := idx_facts t
  show V c main_arg4 (((cfg0.win 1).blk t).view.emb (ix2 p r)) = V c main_arg4 (ix2 (⟨256 * t.val + p.val, row_lt t p⟩ : Fin 4096) r)
  refine congrArg (V c main_arg4) (funext fun a => Fin.ext ?_)
  match a with
  | ⟨0, _⟩ => show win0_1.index t (0 : Fin 2) * 256 + 1 * p.val = 256 * t.val + p.val; omega
  | ⟨1, _⟩ => show win0_1.index t (1 : Fin 2) * 16 + 1 * r.val = r.val; omega

/-- The block of A at every point: the whole factor. -/
private theorem blkA (c : Dev nD) (t : Fin cfg0.N) (r : Fin 16) (q : Fin 4096) :
    iblk0 (F := Ideal) V c 2 t (ix2 r q) = V c main_arg3 (ix2 r q) := by
  obtain ⟨-, -, -, -, e4, e5, -⟩ := idx_facts t
  show V c main_arg3 (((cfg0.win 2).blk t).view.emb (ix2 r q)) = V c main_arg3 (ix2 r q)
  refine congrArg (V c main_arg3) (funext fun a => Fin.ext ?_)
  match a with
  | ⟨0, _⟩ => show win0_2.index t (0 : Fin 2) * 16 + 1 * r.val = r.val; omega
  | ⟨1, _⟩ => show win0_2.index t (1 : Fin 2) * 4096 + 1 * q.val = q.val; omega

/-! ## What a point writes back, and the whole array -/

/-- What point t writes back is block t of the fused weight of the three arrays as the region found them. -/
private theorem flushed_eq (c : Dev nD) (t : Fin cfg0.N) :
    (dat0 (F := Ideal) V c).flushed 3 t
      = ((cfg0.win 3).blk t).view.read (Elt Ideal) (Cert.Spec.fusedWeight (V c main_arg1) (V c main_arg4) (V c main_arg3)) := by
  show (cfg0.win 3).cut (grid0.coords t) ((dat0 (F := Ideal) V c).after 3 t) = _
  rw [after0_3]
  funext y
  obtain ⟨p, q, rfl⟩ : ∃ (p : Fin 256) (q : Fin 4096), y = ix2 p q := ⟨y 0, y 1, eq_ix2 y⟩
  obtain ⟨-, -, -, -, -, -, e6, e7⟩ := idx_facts t
  show k0_pay1 (iblk0 (F := Ideal) V c 1 t) (iblk0 (F := Ideal) V c 2 t) (iblk0 (F := Ideal) V c 0 t) (ix2 p q)
    = Cert.Spec.fusedWeight (V c main_arg1) (V c main_arg4) (V c main_arg3) (((cfg0.win 3).blk t).view.emb (ix2 p q))
  refine (pay_block (iblk0 (F := Ideal) V c 1 t) (iblk0 (F := Ideal) V c 2 t) (iblk0 (F := Ideal) V c 0 t)
    (V c main_arg1) (V c main_arg4) (V c main_arg3) (⟨256 * t.val + p.val, row_lt t p⟩ : Fin 4096) p q
    (blkW V c t p q) (fun r => blkB V c t p r) (fun r => blkA V c t r q)).trans ?_
  show Cert.Spec.fusedWeightAt (V c main_arg1) (V c main_arg4) (V c main_arg3) (⟨256 * t.val + p.val, row_lt t p⟩ : Fin 4096) q
    = Cert.Spec.fusedWeightAt (V c main_arg1) (V c main_arg4) (V c main_arg3)
        ⟨((((cfg0.win 3).blk t).view.emb (ix2 p q)) 0).val, idx2_lt0 _⟩ ⟨((((cfg0.win 3).blk t).view.emb (ix2 p q)) 1).val, idx2_lt1 _⟩
  refine congrArg₂ (Cert.Spec.fusedWeightAt (V c main_arg1) (V c main_arg4) (V c main_arg3)) (Fin.ext ?_) (Fin.ext ?_)
  · show 256 * t.val + p.val = win0_3.index t (0 : Fin 2) * 256 + 1 * p.val; omega
  · show q.val = win0_3.index t (1 : Fin 2) * 4096 + 1 * q.val; omega

/-- An entry of the array is in point t's block iff each coordinate is in the block's range on its axis. -/
private theorem mem_blk (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v2).slice (win0_3.rect t)).set ↔ _
  rw [View.set_slice_whole, Rect.mem_set_unit]
  exact Iff.rfl

/-- Every entry is in the block of the point its row falls to: row o is in block row o / 256. -/
private theorem cover (i : S4096x4096.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 4096 := (i 1).isLt
  have ht : (i 0).val / 256 < cfg0.N := by omega
  obtain ⟨-, -, -, -, -, -, e6, e7⟩ := idx_facts ⟨(i 0).val / 256, ht⟩
  have e6' : win0_3.index ⟨(i 0).val / 256, ht⟩ (0 : Fin 2) = (i 0).val / 256 := e6
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    omega
  | ⟨1, _⟩ =>
    show win0_3.index ⟨(i 0).val / 256, ht⟩ (1 : Fin 2) * 4096 ≤ (i 1).val ∧ (i 1).val < win0_3.index ⟨(i 0).val / 256, ht⟩ (1 : Fin 2) * 4096 + 4096
    omega

/-- After the first region its result array is the fused weight of the region-entry contents of W, B and A. -/
theorem fused_final (c : Dev nD) :
    (dat0 (F := Ideal) V c).arrAt 3 cfg0.N = Cert.Spec.fusedWeight (V c main_arg1) (V c main_arg4) (V c main_arg3) := by
  exact (dat0 (F := Ideal) V c).arrAt_eq_of_cover 3 (Cert.Spec.fusedWeight (V c main_arg1) (V c main_arg4) (V c main_arg3))
    (fun t _ => flushed_eq V c t) cover

end Cert.KernelIdeal.HandValue

end
-- ==== Proof.KI.AccValue.lean ====
/-
  The blocked matmul with bias, as an array.  In the second kernel region the grid is 8 × 4 × 4 (row block i, column
  block j, contraction block k, k fastest).  Over the four points of one (i, j) the scratch accumulator runs through

      acc₀ = 0 + X[i,0]·Wf[j,0]ᵀ ,  acc_k = acc_{k-1} + X[i,k]·Wf[j,k]ᵀ ,

  and at k = 3 the result block (i, j) is written back as acc₃ + bias row (on every row).  At the ideal reading each
  block product read at (p, q) is ∑ over the 1024 columns of the block, so entry (1024 i + p, 1024 j + q) of the result
  is the specification's `matmulBiasAt`: the four block sums added in order, then the bias.  The 32 result blocks tile
  the 8192 × 4096 array (each is written back exactly once, at its k = 3 point), so after the region the whole array is
  the specification's `matmulBias` of the three arrays as the region found them.
-/
import proofs.«117131_j27023934227119_1_alg».proof.Proof.KI.Acc
import proofs.«117131_j27023934227119_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The three payloads read at an entry -/

/-- The reset block is zero everywhere. -/
private theorem pay1_apply (p q : Fin 1024) : (k1_pay1 (F := Ideal)) (ix2 p q) = 0 := by
  unfold k1_pay1
  rw [shapeCast_self]
  exact Ideal.ofBits_zero_f32

/-! The operand indices of the block product at output index i and contraction index k, axis by axis: the left operand
    is read at (i₀, k), the right one at (i₁, k). -/

private theorem lhs_dot_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
private theorem lhs_dot_1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
private theorem rhs_dot_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
private theorem rhs_dot_1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The block product, row p of the left block against row q of the right one (both contracted along their columns). -/
private theorem dot_apply (a : FVec Ideal S1024x1024 .bf16) (w : FVec Ideal S1024x1024 .bf16) (p q : Fin 1024) :
    FloatOps.matmul dot_S1024x1024_S1024x1024_S1024x1024_1_1_0_0_n_n none a w (constant S1024x1024 .f32 0x00000000#32) (ix2 p q)
      = ∑ kk : Fin 1024, a (ix2 p kk) * w (ix2 q kk) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er]

/-- One accumulation step at an entry: what was there plus the block product. -/
private theorem pay2_apply (x : FVec Ideal S1024x1024 .f32) (w : FVec Ideal S1024x1024 .bf16) (acc : FVec Ideal S1024x1024 .f32)
    (p q : Fin 1024) :
    k1_pay2 x w acc (ix2 p q) = acc (ix2 p q) + ∑ kk : Fin 1024, x (ix2 p kk) * w (ix2 q kk) := by
  unfold k1_pay2
  simp only [shapeCast_self]
  refine (addf_apply _ _ (ix2 p q)).trans ?_
  refine congrArg (acc (ix2 p q) + ·) ?_
  exact dot_apply (truncf .bf16 x bitsLt_bf16_f32) w p q

/-- The write-back block at an entry: the accumulator plus the bias row's entry of that column. -/
private theorem pay3_apply (acc : FVec Ideal S1024x1024 .f32) (b : FVec Ideal S1x1024 .f32) (p q : Fin 1024) :
    k1_pay3 acc b (ix2 p q) = acc (ix2 p q) + b (ix2 (0 : Fin 1) q) := by
  unfold k1_pay3
  simp only [shapeCast_self]
  refine (addf_apply _ _ (ix2 p q)).trans ?_
  refine congrArg (acc (ix2 p q) + ·) ?_
  exact broadcastTo_1b_ab_apply b broadcasts_S1x1024_S1024x1024 p q

/-! ## Where the blocks sit -/

/-- The index maps in closed form over the grid: point t has row block t / 16, column block (t / 4) mod 4 and
    contraction block t mod 4. -/
private theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The staged blocks of the activations, the fused weight and the bias row at a point, at their literal types. -/
private abbrev xblk (c : Dev nD) (t : Fin cfg1.N) : FVec Ideal S1024x1024 .f32 := iblk1 V c 0 t
private abbrev wblk (c : Dev nD) (t : Fin cfg1.N) : FVec Ideal S1024x1024 .bf16 := iblk1 V c 1 t
private abbrev bblk (c : Dev nD) (t : Fin cfg1.N) : FVec Ideal S1x1024 .f32 := iblk1 V c 2 t

/-- The product of the two blocks staged at point s, row p against row q, is contraction block s mod 4 of the
    specification's sum at the array row and column the entry (p, q) of the result block (s / 16, (s / 4) mod 4) sits at. -/
private theorem block_sum (c : Dev nD) (s : Fin cfg1.N) (k : Fin 4) (hk : s.val % 4 = k.val) (p q : Fin 1024)
    (m : Fin 8192) (o : Fin 4096) (hm : m.val = 1024 * (s.val / 16) + p.val) (ho : o.val = 1024 * (s.val / 4 % 4) + q.val) :
    ∑ kk : Fin 1024, xblk V c s (ix2 p kk) * wblk V c s (ix2 q kk)
      = Cert.Spec.blockSum (V c main_v0) (V c main_v2) k m o := by
  obtain ⟨e0, e1, e2, e3, -⟩ := idx_facts s
  unfold Cert.Spec.blockSum
  refine Finset.sum_congr rfl fun kk _ => ?_
  have hx : xblk V c s (ix2 p kk) = V c main_v0 (ix2 m ⟨1024 * k.val + kk.val, by omega⟩) := by
    show V c main_v0 (((cfg1.win 0).blk s).view.emb (ix2 p kk)) = V c main_v0 _
    refine congrArg (V c main_v0) (funext fun a => Fin.ext ?_)
    match a with
    | ⟨0, _⟩ => show win1_0.index s (0 : Fin 2) * 1024 + 1 * p.val = m.val; rw [e0, hm]; omega
    | ⟨1, _⟩ => show win1_0.index s (1 : Fin 2) * 1024 + 1 * kk.val = 1024 * k.val + kk.val; rw [e1, hk]; omega
  have hw : wblk V c s (ix2 q kk) = V c main_v2 (ix2 o ⟨1024 * k.val + kk.val, by omega⟩) := by
    show V c main_v2 (((cfg1.win 1).blk s).view.emb (ix2 q kk)) = V c main_v2 _
    refine congrArg (V c main_v2) (funext fun a => Fin.ext ?_)
    match a with
    | ⟨0, _⟩ => show win1_1.index s (0 : Fin 2) * 1024 + 1 * q.val = o.val; rw [e2, ho]; omega
    | ⟨1, _⟩ => show win1_1.index s (1 : Fin 2) * 1024 + 1 * kk.val = 1024 * k.val + kk.val; rw [e3, hk]; omega
  rw [hx, hw]

/-- The bias block staged at point t, at column q of its one row, is the bias row at the array column. -/
private theorem bias_read (c : Dev nD) (t : Fin cfg1.N) (q : Fin 1024) (o : Fin 4096) (ho : o.val = 1024 * (t.val / 4 % 4) + q.val) :
    bblk V c t (ix2 (0 : Fin 1) q) = V c main_v1 (ix2 (0 : Fin 1) o) := by
  obtain ⟨-, -, -, -, e4, e5, -⟩ := idx_facts t
  show V c main_v1 (((cfg1.win 2).blk t).view.emb (ix2 (0 : Fin 1) q)) = V c main_v1 _
  refine congrArg (V c main_v1) (funext fun a => Fin.ext ?_)
  match a with
  | ⟨0, _⟩ => show win1_2.index t (0 : Fin 2) * 1 + 1 * (0 : Fin 1).val = (0 : Fin 1).val; rw [e4]; rfl
  | ⟨1, _⟩ => show win1_2.index t (1 : Fin 2) * 1024 + 1 * q.val = o.val; rw [e5, ho]; omega

/-! ## The four steps of one result block -/

/-- The accumulator after a position depends on the position only. -/
private theorem accAt_congr (c : Dev nD) (n n' : ℕ) (hn : n < cfg1.N) (hn' : n' < cfg1.N) (e : n = n') :
    accAt V c n hn = accAt V c n' hn' := by
  subst e; rfl

/-- At a point t with contraction block 3 the accumulator is four steps over the zero block: the blocks staged at t - 3
    (where the contraction block is 0 and the accumulator restarts), t - 2, t - 1 and t, in that order. -/
private theorem acc_four (c : Dev nD) (t t1 t2 t3 : Fin cfg1.N) (h : t.val % 4 = 3)
    (e1 : t1.val = t.val - 1) (e2 : t2.val = t.val - 2) (e3 : t3.val = t.val - 3) :
    accAt V c t.val t.isLt
      = k1_pay2 (F := Ideal) (xblk V c t) (wblk V c t) (k1_pay2 (F := Ideal) (xblk V c t1) (wblk V c t1)
          (k1_pay2 (F := Ideal) (xblk V c t2) (wblk V c t2) (k1_pay2 (F := Ideal) (xblk V c t3) (wblk V c t3) (k1_pay1 (F := Ideal))))) := by
  have a0 := accAt_next V c t (by omega)
  have a1 := accAt_next V c t1 (by omega)
  have a2 := accAt_next V c t2 (by omega)
  have a3 := accAt_first V c t3 (by omega)
  refine a0.trans (congrArg (k1_pay2 (F := Ideal) (xblk V c t) (wblk V c t)) ?_)
  refine (accAt_congr V c (t.val - 1) t1.val _ t1.isLt e1.symm).trans ?_
  refine a1.trans (congrArg (k1_pay2 (F := Ideal) (xblk V c t1) (wblk V c t1)) ?_)
  refine (accAt_congr V c (t1.val - 1) t2.val _ t2.isLt (by omega)).trans ?_
  refine a2.trans (congrArg (k1_pay2 (F := Ideal) (xblk V c t2) (wblk V c t2)) ?_)
  refine (accAt_congr V c (t2.val - 1) t3.val _ t3.isLt (by omega)).trans ?_
  exact a3

/-- What a point with contraction block 3 writes back, at entry (p, q) of its block: the specification's entry at the
    array row m and column o the entry sits at — the four block sums added in order on top of zero, then the bias. -/
private theorem flushed_entry (c : Dev nD) (t : Fin cfg1.N) (h : t.val % 4 = 3) (p q : Fin 1024) (m : Fin 8192) (o : Fin 4096)
    (hm : m.val = 1024 * (t.val / 16) + p.val) (ho : o.val = 1024 * (t.val / 4 % 4) + q.val) :
    k1_pay3 (accAt V c t.val t.isLt) (bblk V c t) (ix2 p q)
      = Cert.Spec.matmulBiasAt (V c main_v0) (V c main_v2) (V c main_v1) m o := by
  have ht := t.isLt
  obtain ⟨t1, e1⟩ : ∃ t1 : Fin cfg1.N, t1.val = t.val - 1 := ⟨⟨t.val - 1, by omega⟩, rfl⟩
  obtain ⟨t2, e2⟩ : ∃ t2 : Fin cfg1.N, t2.val = t.val - 2 := ⟨⟨t.val - 2, by omega⟩, rfl⟩
  obtain ⟨t3, e3⟩ : ∃ t3 : Fin cfg1.N, t3.val = t.val - 3 := ⟨⟨t.val - 3, by omega⟩, rfl⟩
  refine (pay3_apply (accAt V c t.val t.isLt) (bblk V c t) p q).trans ?_
  rw [acc_four V c t t1 t2 t3 h e1 e2 e3]
  rw [pay2_apply (xblk V c t) (wblk V c t) _ p q, pay2_apply (xblk V c t1) (wblk V c t1) _ p q,
    pay2_apply (xblk V c t2) (wblk V c t2) _ p q, pay2_apply (xblk V c t3) (wblk V c t3) _ p q, pay1_apply, zero_add]
  rw [block_sum V c t3 0 (by show t3.val % 4 = 0; omega) p q m o (by omega) (by omega),
    block_sum V c t2 1 (by show t2.val % 4 = 1; omega) p q m o (by omega) (by omega),
    block_sum V c t1 2 (by show t1.val % 4 = 2; omega) p q m o (by omega) (by omega),
    block_sum V c t 3 (by show t.val % 4 = 3; omega) p q m o hm ho,
    bias_read V c t q o ho]
  rfl

/-! ## From the blocks to the array -/

/-- What a writing-back point writes back is its block of the specification's array. -/
private theorem flushed_eq (c : Dev nD) (t : Fin cfg1.N) (hf : (cfg1.win 3).flush t = true) :
    (dat1 (F := Ideal) V c).flushed 3 t = ((cfg1.win 3).blk t).view.read (Elt Ideal)
      (Cert.Spec.matmulBias (V c main_v0) (V c main_v2) (V c main_v1)) := by
  have h : t.val % 4 = 3 := (flush1_3 t).mp hf
  have hN : cfg1.N = 128 := N_1
  have ht := t.isLt
  obtain ⟨-, -, -, -, -, -, e6, e7⟩ := idx_facts t
  show (cfg1.win 3).cut (grid1.coords t) ((dat1 (F := Ideal) V c).after 3 t) = _
  rw [after1_3]
  funext y
  obtain ⟨p, q, rfl⟩ : ∃ (p q : Fin 1024), y = ix2 p q := ⟨y 0, y 1, eq_ix2 y⟩
  have hp := p.isLt
  have hq := q.isLt
  show k1_pay3 (accAt V c t.val t.isLt) (bblk V c t) (ix2 p q)
    = Cert.Spec.matmulBiasAt (V c main_v0) (V c main_v2) (V c main_v1)
        ⟨win1_3.index t (0 : Fin 2) * 1024 + 1 * p.val, by rw [e6]; omega⟩ ⟨win1_3.index t (1 : Fin 2) * 1024 + 1 * q.val, by rw [e7]; omega⟩
  exact flushed_entry V c t h p q _ _ (by show win1_3.index t (0 : Fin 2) * 1024 + 1 * p.val = _; rw [e6]; omega)
    (by show win1_3.index t (1 : Fin 2) * 1024 + 1 * q.val = _; rw [e7]; omega)

/-- An index of the result array is in point t's block iff each coordinate is in the block's range on its axis. -/
private theorem mem_blk (t : Fin cfg1.N) (i : S8192x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v3).slice (win1_3.rect t)).set ↔ _
  rw [View.set_slice_whole, Rect.mem_set_unit]
  exact Iff.rfl

/-- The 32 result blocks tile the array: entry (r, s) is in the block written back at the point with row block
    r / 1024, column block s / 1024 and contraction block 3. -/
private theorem cover (i : S8192x4096.Idx) :
    ∃ t : Fin cfg1.N, (cfg1.win 3).flush t = true ∧ i ∈ ((cfg1.win 3).blk t).view.set := by
  have hN : cfg1.N = 128 := N_1
  have hi0 : (i 0).val < 8192 := idx2_lt0 i
  have hi1 : (i 1).val < 4096 := idx2_lt1 i
  obtain ⟨t, ht⟩ : ∃ t : Fin cfg1.N, t.val = 16 * ((i 0).val / 1024) + 4 * ((i 1).val / 1024) + 3 := ⟨⟨_, by omega⟩, rfl⟩
  obtain ⟨-, -, -, -, -, -, e6, e7⟩ := idx_facts t
  refine ⟨t, (flush1_3 t).mpr (by omega), ?_⟩
  rw [mem_blk]
  intro a
  match a with
  | ⟨0, _⟩ =>
    show win1_3.index t (0 : Fin 2) * 1024 ≤ (i 0).val ∧ (i 0).val < win1_3.index t (0 : Fin 2) * 1024 + 1024
    rw [e6]; omega
  | ⟨1, _⟩ =>
    show win1_3.index t (1 : Fin 2) * 1024 ≤ (i 1).val ∧ (i 1).val < win1_3.index t (1 : Fin 2) * 1024 + 1024
    rw [e7]; omega

/-- After the second region its result array is the blocked matmul with bias of the region-entry contents of the
    flattened activations, the fused weight and the bias row. -/
theorem matmul_final (c : Dev nD) :
    (dat1 (F := Ideal) V c).arrAt 3 cfg1.N = Cert.Spec.matmulBias (V c main_v0) (V c main_v2) (V c main_v1) :=
  (dat1 (F := Ideal) V c).arrAt_eq_of_cover 3 (Cert.Spec.matmulBias (V c main_v0) (V c main_v2) (V c main_v1))
    (fun t hf => flushed_eq V c t hf) cover

end Cert.KernelIdeal.HandValue

end
-- ==== Proof.KI.KernelValue.lean ====
/-
  The kernel program's result, as one function of the five arguments.

  Walking the boundaries of the run: the activations enter the matmul region with their two leading axes flattened
  (row m = 2048 b + s is (b, s)); the bias enters as a one-row matrix; the fused weight enters as the weight-fusing
  region left it, which is the specification's `fusedWeight` of W, B and A (no item before that region writes an
  argument); the matmul region leaves the specification's `matmulBias` of those three; and the last reshape reads it
  back at (b, s, o) as row 2048 b + s, column o.  Composed, the result buffer holds the specification's `kernelOut`.
-/
import proofs.«117131_j27023934227119_1_alg».proof.Proof.KI.Frame
import proofs.«117131_j27023934227119_1_alg».proof.Proof.KI.FuseValue
import proofs.«117131_j27023934227119_1_alg».proof.Proof.KI.AccValue
import proofs.«117131_j27023934227119_1_alg».proof.Proof.Spec
import Idealize.ShloMosaic.Lib.StableHlo.Run
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-! ## The three reshapes read at an index -/

/-- Flattening the two leading axes, read at (row, column). -/
theorem flatten_apply (x : S4x2048x4096.Idx → EReal) (j : S8192x4096.Idx) :
    shapeCast S8192x4096 x shapeCasts_S4x2048x4096_S8192x4096 j = Cert.Spec.flattenRows x j := by
  unfold Cert.Spec.flattenRows
  refine shapeCast_apply x _ j _ ?_
  rw [Shape.rowMajor_val_three, Shape.rowMajor_val_two]
  show ((j 0).val / 2048 * 2048 + (j 0).val % 2048) * 4096 + (j 1).val = (j 0).val * 4096 + (j 1).val
  have := Nat.div_add_mod' (j 0).val 2048
  omega

/-- The bias as a one-row matrix, read at (0, column). -/
theorem biasRow_apply (b : S4096.Idx → EReal) (j : S1x4096.Idx) :
    shapeCast S1x4096 b shapeCasts_S4096_S1x4096 j = Cert.Spec.biasRow b j := by
  unfold Cert.Spec.biasRow
  refine shapeCast_apply b _ j _ ?_
  rw [Shape.rowMajor_val_one, Shape.rowMajor_val_two]
  show (j 1).val = (j 0).val * 4096 + (j 1).val
  have h0 : (j 0).val < 1 := (j 0).isLt
  omega

/-- The result unflattened, read at (b, s, o): row 2048 b + s, column o. -/
theorem unflatten_apply (y : S8192x4096.Idx → EReal) (i : S4x2048x4096.Idx) :
    shapeCast S4x2048x4096 y shapeCasts_S8192x4096_S4x2048x4096 i
      = y (ix2 (⟨2048 * (i 0).val + (i 1).val, by
          have h0 : (i 0).val < 4 := (i 0).isLt; have h1 : (i 1).val < 2048 := (i 1).isLt; omega⟩ : Fin 8192)
          (⟨(i 2).val, (i 2).isLt⟩ : Fin 4096)) := by
  refine shapeCast_apply y _ i _ ?_
  rw [Shape.rowMajor_val_three, Shape.rowMajor_val_two]
  show (2048 * (i 0).val + (i 1).val) * 4096 + (i 2).val = ((i 0).val * 2048 + (i 1).val) * 4096 + (i 2).val
  omega

/-! ## What the regions are entered with -/

theorem ent0_arg (c : Dev nD) (r : Ref sig .tc) (h : r ∉ hostOps0_W) : ent0 m ρ c r = m ((c : Thread nD τ).loc r) :=
  (bnd1_of m ρ c r h).trans rfl

/-- The matmul region finds the activations flattened, -/
theorem ent1_v0 (c : Dev nD) : ent1 m ρ c main_v0 = Cert.Spec.flattenRows (m ((c : Thread nD τ).loc main_arg0)) := by
  refine (bnd2_of_ne m ρ c main_v0 (by decide)).trans ?_
  show StableHlo.after hostOps0 (bnd0 m ρ c) (Proc.devRef .tc main_v0) = _
  after_results
  funext j
  exact flatten_apply (m ((c : Thread nD τ).loc main_arg0)) j

/-- the bias as a one-row matrix, -/
theorem ent1_v1 (c : Dev nD) : ent1 m ρ c main_v1 = Cert.Spec.biasRow (m ((c : Thread nD τ).loc main_arg2)) := by
  refine (bnd2_of_ne m ρ c main_v1 (by decide)).trans ?_
  show StableHlo.after hostOps0 (bnd0 m ρ c) (Proc.devRef .tc main_v1) = _
  after_results
  funext j
  exact biasRow_apply (m ((c : Thread nD τ).loc main_arg2)) j

/-- and the fused weight of W, B and A. -/
theorem ent1_v2 (c : Dev nD) : ent1 m ρ c main_v2
    = Cert.Spec.fusedWeight (m ((c : Thread nD τ).loc main_arg1)) (m ((c : Thread nD τ).loc main_arg4)) (m ((c : Thread nD τ).loc main_arg3)) := by
  refine (bnd2_arr m ρ c 3).trans ((fused_final (ent0 m ρ) c).trans ?_)
  rw [ent0_arg m ρ c main_arg1 (by decide), ent0_arg m ρ c main_arg4 (by decide), ent0_arg m ρ c main_arg3 (by decide)]

/-! ## The result -/

/-- After the run the result buffer holds the specification's fused form of the five arguments. -/
theorem result_value (c : Dev nD) :
    bnd4 m ρ c (Proc.devRef .tc main_v4)
      = Cert.Spec.kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  have h3 : bnd3 m ρ c (Proc.devRef .tc main_v3)
      = Cert.Spec.matmulBias (Cert.Spec.flattenRows (m ((c : Thread nD τ).loc main_arg0)))
          (Cert.Spec.fusedWeight (m ((c : Thread nD τ).loc main_arg1)) (m ((c : Thread nD τ).loc main_arg4)) (m ((c : Thread nD τ).loc main_arg3)))
          (Cert.Spec.biasRow (m ((c : Thread nD τ).loc main_arg2))) := by
    refine (bnd3_arr m ρ c 3).trans ((matmul_final (ent1 m ρ) c).trans ?_)
    rw [ent1_v0, ent1_v1, ent1_v2]
  show StableHlo.after hostOps2 (bnd3 m ρ c) (Proc.devRef .tc main_v4) = _
  after_results
  funext i
  show shapeCast S4x2048x4096 (bnd3 m ρ c (Proc.devRef .tc main_v3)) shapeCasts_S8192x4096_S4x2048x4096 i = _
  rw [h3, unflatten_apply]
  rfl

/-- THE VALUE RUN: @main runs to the end, the result buffer at the fused form of the arguments, the arguments as launched. -/
theorem run_value : θ_run defs (onTc (τ := τ) (main (F := Ideal))) ⟨m, fun _ => 0, ρ⟩ (fun r => ∀ c : Dev nD,
      r.2.mem ((c.tc : Thread nD τ).loc main_v4)
        = Cert.Spec.kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (result_value m ρ c), args_kept m ρ h c⟩) (run_main m ρ)

end Cert.KernelIdeal.HandValue

end
-- ==== Proof.RefRead.lean ====
/-
  The reference program's value.  Its @main is ten host operations: x·Wᵀ (a contraction over the last axis), the bias
  broadcast over rows and added, x·Aᵀ, that times Bᵀ, the product scaled by 1/16, and the final sum.  Read at an index
  (b, s, o) of the result, one operation at a time, this is

      (∑ i, x[b, s, i] · W[o, i] + bias[o]) + (∑ r, (∑ i, x[b, s, i] · A[r, i]) · B[o, r]) · (1/16) ,

  the low-rank form of the specification.
-/
import proofs.«117131_j27023934227119_1_alg».proof.Defs
import proofs.«117131_j27023934227119_1_alg».proof.Proof.Gen.ReferenceIdeal.Run
import proofs.«117131_j27023934227119_1_alg».proof.Proof.Gen.ReferenceIdeal.Read
import proofs.«117131_j27023934227119_1_alg».proof.Proof.Spec

noncomputable section

namespace Cert.RefValue

open Cert.ReferenceIdeal Cert.ReferenceIdeal.Gen Cert.ReferenceIdeal.Read
open Idealize.ShloMosaic Idealize.ShloMosaic.TcCoe Idealize.SL.Sem Idealize.ShloMosaic.ValueIdx

/-- Reading the first contraction's left operand at (i, k) is reading x at (b, s, k). -/
private theorem lidx_v0_eq (i : S4x2048x4096.Idx) (k : Fin 4096) :
    lidx_main_v0 i k = ix3 (⟨(i 0).val, (i 0).isLt⟩ : Fin 4) (⟨(i 1).val, (i 1).isLt⟩ : Fin 2048) k :=
  funext fun a => by match a with | ⟨0, _⟩ => rfl | ⟨1, _⟩ => rfl | ⟨2, _⟩ => rfl

/-- Reading the first contraction's right operand at (i, k) is reading W at (o, k). -/
private theorem ridx_v0_eq (i : S4x2048x4096.Idx) (k : Fin 4096) :
    ridx_main_v0 i k = ix2 (⟨(i 2).val, (i 2).isLt⟩ : Fin 4096) k :=
  funext fun a => by match a with | ⟨0, _⟩ => rfl | ⟨1, _⟩ => rfl

/-- The bias, broadcast twice, is read at o. -/
private theorem idx_bias_eq (i : S4x2048x4096.Idx) :
    idx_main_v1 (idx_main_v2 i) = ix1 (⟨(i 2).val, (i 2).isLt⟩ : Fin 4096) :=
  funext fun a => by match a with | ⟨0, _⟩ => rfl

/-- The inner contraction of the low-rank term, read through the outer one at rank index r, reads x at (b, s, k). -/
private theorem lidx_v4_eq (i : S4x2048x4096.Idx) (r : Fin 16) (k : Fin 4096) :
    lidx_main_v4 (lidx_main_v5 i r) k = ix3 (⟨(i 0).val, (i 0).isLt⟩ : Fin 4) (⟨(i 1).val, (i 1).isLt⟩ : Fin 2048) k :=
  funext fun a => by match a with | ⟨0, _⟩ => rfl | ⟨1, _⟩ => rfl | ⟨2, _⟩ => rfl

/-- ... and reads A at (r, k). -/
private theorem ridx_v4_eq (i : S4x2048x4096.Idx) (r : Fin 16) (k : Fin 4096) :
    ridx_main_v4 (lidx_main_v5 i r) k = ix2 r k :=
  funext fun a => by match a with | ⟨0, _⟩ => rfl | ⟨1, _⟩ => rfl

/-- The outer contraction of the low-rank term reads B at (o, r). -/
private theorem ridx_v5_eq (i : S4x2048x4096.Idx) (r : Fin 16) :
    ridx_main_v5 i r = ix2 (⟨(i 2).val, (i 2).isLt⟩ : Fin 4096) r :=
  funext fun a => by match a with | ⟨0, _⟩ => rfl | ⟨1, _⟩ => rfl

/-- The reference's last stage, as a function of the five arguments, is the specification's low-rank form. -/
theorem reference_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = Cert.Spec.referenceOut x0 x1 x2 x3 x4 := by
  funext i
  rw [val_main_v8_apply, val_main_v3_apply, val_main_v7_apply, val_main_v0_apply, val_main_v2_apply, val_main_v1_apply,
    val_main_v5_apply, val_main_v6_apply, val_main_cst_apply]
  simp only [val_main_v4_apply, lidx_v0_eq, ridx_v0_eq, idx_bias_eq, lidx_v4_eq, ridx_v4_eq, ridx_v5_eq,
    Ideal.addf_def, Ideal.mulf_def, Ideal.ofBits_def]
  rfl

end Cert.RefValue

end
-- ==== Proof.Finite.lean ====
/-
  What the precondition says.  The printed predicate is the conjunction, over the five arguments, of
  "every entry has absolute value below +∞"; at the ideal reading an entry is an extended real, and |v| < +∞ leaves
  exactly the real numbers.  So under the precondition every entry of every argument is the coercion of a real.
-/
import proofs.«117131_j27023934227119_1_alg».proof.Defs
import proofs.«117131_j27023934227119_1_alg».proof.Proof.Gen.Pre_finite_inputs
import proofs.«117131_j27023934227119_1_alg».proof.Proof.Gen.KernelIdeal
import Idealize.ShloMosaic.Lib.ReduceAll
import Idealize.ShloMosaic.Lib.ValueIdx

noncomputable section

namespace Cert.Finite

open Idealize.ShloMosaic Idealize.ShloMosaic.TcCoe Idealize.SL.Sem

/-- An extended real whose absolute value lies strictly below +∞ is (the coercion of) a real number: at ⊥ and at ⊤ the
    absolute value max v (-v) is ⊤, which is not below ⊤. The literal 0x7F800000 is +∞. -/
private theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have htop : Ideal.ofBits .f32 0x7F800000#32 = (⊤ : EReal) := by simp [Ideal.ofBits, Ideal.ieee]
  have h' : Ideal.cmp .olt (max v (-v)) (Ideal.ofBits .f32 0x7F800000#32) = 1#1 := h
  rw [htop] at h'
  induction v using EReal.rec with
  | bot => simp [Ideal.cmp] at h'
  | coe r => exact ⟨r, rfl⟩
  | top => simp [Ideal.cmp] at h'

/-- The printed predicate, all ones, makes every entry of each of the five arrays a real number. -/
theorem real_of_fn (a0 : FVec Ideal Cert.Pre_finite_inputs.S4x2048x4096 .f32) (a1 : FVec Ideal Cert.Pre_finite_inputs.S4096x4096 .f32)
    (a2 : FVec Ideal Cert.Pre_finite_inputs.S4096 .f32) (a3 : FVec Ideal Cert.Pre_finite_inputs.S16x4096 .f32)
    (a4 : FVec Ideal Cert.Pre_finite_inputs.S4096x16 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the predicate's one entry, spelled out: the conjunction of five reductions by "and"
  have h0 := congrFun h ValueIdx.ix0
  dsimp only [Cert.Pre_finite_inputs.fn, Cert.Pre_finite_inputs.fn_part1] at h0
  -- a rank-0 array has one index, so each reduction ranges over every entry of its operand
  haveI : Subsingleton Cert.Pre_finite_inputs.S_.Idx := ⟨fun a b => funext fun d => d.elim0⟩
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i)⟩

end Cert.Finite

end
-- ==== Proof.lean ====
/- The proof of `Cert.Claim` (proofs.«117131_j27023934227119_1_alg».proof.Defs): a low-rank-adapted linear layer.

   The kernel program fuses the low-rank update into the weight, Wf = W + (B·A)/16, in a first kernel region, and then
   multiplies the flattened activations by Wfᵀ block by block in a second one (contraction axis in four blocks of 1024,
   a scratch accumulator carried across the blocks, the bias added when the last block is done); the reference computes
   (x·Wᵀ + bias) + ((x·Aᵀ)·Bᵀ)/16 on the host.

   * The three frames.  Both kernel programs go through ONE run of @main as a list of segments (two reshapes, the two
     regions, a reshape), stated for any float instance: Proof/KI/{Fuse,Acc,Run,Frame}.lean for the idealized program
     and their namesakes under Proof/K/ for the word-level one.  The reference's frame is its run with the result dropped.
   * `preserves`: the idealization rewrote nothing; the conjunct is `True`.
   * `algebraic`: the same run names the kernel's result (Proof/KI/FuseValue.lean, AccValue.lean, KernelValue.lean:
     the specification's fused form of the arguments); the reference's result is the specification's low-rank form
     (Proof/RefRead.lean); the precondition makes every input entry a real number (Proof/Finite.lean); and on real
     inputs the two forms agree (Proof/Spec.lean: a sum cut into blocks, distributivity, an exchange of two sums). -/
import proofs.«117131_j27023934227119_1_alg».proof.Defs
import proofs.«117131_j27023934227119_1_alg».proof.Proof.Gen.Kernel
import proofs.«117131_j27023934227119_1_alg».proof.Proof.Gen.KernelIdeal
import proofs.«117131_j27023934227119_1_alg».proof.Proof.Gen.ReferenceIdeal
import proofs.«117131_j27023934227119_1_alg».proof.Proof.Gen.Pre_finite_inputs
import proofs.«117131_j27023934227119_1_alg».proof.Proof.K.Frame
import proofs.«117131_j27023934227119_1_alg».proof.Proof.KI.Frame
import proofs.«117131_j27023934227119_1_alg».proof.Proof.KI.KernelValue
import proofs.«117131_j27023934227119_1_alg».proof.Proof.RefRead
import proofs.«117131_j27023934227119_1_alg».proof.Proof.Finite
import proofs.«117131_j27023934227119_1_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at one function of the arguments: the kernel's run at the fused form, the
    reference's at the low-rank form, which agree on the real-valued inputs the precondition admits. -/
theorem algebraic : Cert.algebraic_KernelIdeal_ReferenceIdeal := by
  intro m ρ m' ρ' hpre hagree
  refine ⟨_, Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefValue.reference_eq,
    (hagree c).1, (hagree c).2.1, (hagree c).2.2.1, (hagree c).2.2.2.1, (hagree c).2.2.2.2]
  obtain ⟨h0, h1, h2, h3, h4⟩ := Cert.Finite.real_of_fn _ _ _ _ _ (hpre c)
  exact (Cert.Spec.kernelOut_eq_referenceOut _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
